-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x1x1x2048 : Shape := ⟨4, ![2, 1, 1, 2048]⟩
abbrev S1024x3072 : Shape := ⟨2, ![1024, 3072]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x1x1x2048 : S_.BroadcastsInDim S2x1x1x2048 (![] : Fin 0 → Fin S2x1x1x2048.rank)
  reducesTo_S2x1x1x2048_S_d0_1_2_3 : S2x1x1x2048.ReducesTo [0, 1, 2, 3] S_
  bcast_S_S1024x3072 : S_.BroadcastsInDim S1024x3072 (![] : Fin 0 → Fin S1024x3072.rank)
  reducesTo_S1024x3072_S_d0_1 : S1024x3072.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S2x2048x1024 .f32) (main_arg1 : FVec F S2x1x1x2048 .f32) (main_arg2 : FVec F S1024x3072 .f32) (main_arg3 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x1x1x2048 .f32 := Host.absf main_arg1
  let main_cst_0 : FVec F S_ .f32 := constant S_ .f32 0x7F800000#32
  let main_v5 : FVec F S2x1x1x2048 .f32 := broadcastInDim S2x1x1x2048 ![] bcast_S_S2x1x1x2048 main_cst_0
  let main_v6 : IVec S2x1x1x2048 1 := cmpf .olt main_v4 main_v5
  let main_c_1 : IVec S_ 1 := constantI S_ 1 1#1
  let main_v7 : IVec S_ 1 := (fun x v => Host.reduce IntOp.andi x v reducesTo_S2x1x1x2048_S_d0_1_2_3 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S2x2048x1024 : Shape := ⟨3, ![2, 2048, 1024]⟩
abbrev S2x1x1x2048 : Shape := ⟨4, ![2, 1, 1, 2048]⟩
abbrev S1024x3072 : Shape := ⟨2, ![1024, 3072]⟩
abbrev S1024x1024 : Shape := ⟨2, ![1024, 1024]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S1x1x256x64 : Shape := ⟨4, ![1, 1, 256, 64]⟩
abbrev S1x1x2048x64 : Shape := ⟨4, ![1, 1, 2048, 64]⟩
abbrev S1x1x1x2048 : Shape := ⟨4, ![1, 1, 1, 2048]⟩
abbrev S1x1x2048x256 : Shape := ⟨4, ![1, 1, 2048, 256]⟩
abbrev S256x64 : Shape := ⟨2, ![256, 64]⟩
abbrev S2048x64 : Shape := ⟨2, ![2048, 64]⟩
abbrev S2048 : Shape := ⟨1, ![2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048x256 : Shape := ⟨2, ![2048, 256]⟩

abbrev nBuf : Space → Nat
  | .hbm => 32
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x1x1x2048, .f32⟩
  | .hbm, ⟨2, _⟩ => ⟨S1024x3072, .f32⟩
  | .hbm, ⟨3, _⟩ => ⟨S1024x1024, .f32⟩
  | .hbm, ⟨4, _⟩ => ⟨S2x2048x1024, .bf16⟩
  | .hbm, ⟨5, _⟩ => ⟨S1024x3072, .bf16⟩
  | .hbm, ⟨6, _⟩ => ⟨S1024x1024, .bf16⟩
  | .hbm, ⟨7, _⟩ => ⟨S4096x1024, .bf16⟩
  | .hbm, ⟨8, _⟩ => ⟨S4096x3072, .f32⟩
  | .hbm, ⟨9, _⟩ => ⟨S2x2048x3072, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S_, .f32⟩
  | .hbm, ⟨16, _⟩ => ⟨S2x16x2048x64, .f32⟩
  | .hbm, ⟨17, _⟩ => ⟨S2x16x2048x64, .f32⟩
  | .hbm, ⟨18, _⟩ => ⟨S2x2048x16x64, .f32⟩
  | .hbm, ⟨19, _⟩ => ⟨S2x16x2048x64, .f32⟩
  | .hbm, ⟨20, _⟩ => ⟨S2x2048x16x64, .f32⟩
  | .hbm, ⟨21, _⟩ => ⟨S2x16x2048x64, .f32⟩
  | .hbm, ⟨22, _⟩ => ⟨S2x16x2048x64, .bf16⟩
  | .hbm, ⟨23, _⟩ => ⟨S2x16x2048x64, .bf16⟩
  | .hbm, ⟨24, _⟩ => ⟨S2x16x2048x64, .bf16⟩
  | .hbm, ⟨25, _⟩ => ⟨S2x16x2048x64, .bf16⟩
  | .hbm, ⟨26, _⟩ => ⟨S2x16x2048x2048, .f32⟩
  | .hbm, ⟨27, _⟩ => ⟨S2x2048x16x64, .bf16⟩
  | .hbm, ⟨28, _⟩ => ⟨S2x2048x1024, .bf16⟩
  | .hbm, ⟨29, _⟩ => ⟨S4096x1024, .bf16⟩
  | .hbm, ⟨30, _⟩ => ⟨S4096x1024, .f32⟩
  | .hbm, ⟨31, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x3072, .f32⟩
  | .local _ .vmem, ⟨4, _⟩ => ⟨S512x3072, .f32⟩
  | .local _ .vmem, ⟨5, _⟩ => ⟨S1x1x256x64, .bf16⟩
  | .local _ .vmem, ⟨6, _⟩ => ⟨S1x1x256x64, .bf16⟩
  | .local _ .vmem, ⟨7, _⟩ => ⟨S1x1x2048x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x1x2048, .f32⟩
  | .local _ .vmem, ⟨12, _⟩ => ⟨S1x1x1x2048, .f32⟩
  | .local _ .vmem, ⟨13, _⟩ => ⟨S1x1x256x64, .bf16⟩
  | .local _ .vmem, ⟨14, _⟩ => ⟨S1x1x256x64, .bf16⟩
  | .local _ .vmem, ⟨15, _⟩ => ⟨S1x1x2048x256, .f32⟩
  | .local _ .vmem, ⟨16, _⟩ => ⟨S1x1x2048x256, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![2, 16, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 2 → Memref sig .tc .vmem S1x1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1x256x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1x2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bitsLt_bf16_f32 : FTy.bits .bf16 < FTy.bits .f32
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  shapeCasts_S4096x3072_S2x2048x3072 : S4096x3072.ShapeCasts S2x2048x3072
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x64 : S_.BroadcastsInDim S2x16x2048x64 (![] : Fin 0 → Fin S2x16x2048x64.rank)
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  shapeCasts_S2048_S1x2048 : S2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  packedbf16_S1x1x256x64_S1x1x256x64_0_0_0_0 : (Rect.unit (s := S1x1x256x64) ![0, 0, 0, 0] S1x1x256x64.size inb_S1x1x256x64_S1x1x256x64_0_0_0_0).PackedRows (EltTy.packing .bf16)
  transposes_S256x2048_p1_0_S2048x256 : S256x2048.Transposes [1, 0] S2048x256
  inb_S1x1x2048x256_S1x1x2048x256_0_0_0_0 : ∀ a, (![0, 0, 0, 0] : Fin 4 → Nat) a + S1x1x2048x256.size a ≤ S1x1x2048x256.size a
  h_S1x1x2048x256 : 0 < S1x1x2048x256.numel
  shapeCasts_S1x1x2048x256_S2048x256 : S1x1x2048x256.ShapeCasts S2048x256
  shapeCasts_S2048x256_S1x1x2048x256 : S2048x256.ShapeCasts S1x1x2048x256
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .f32 = 32 ∨ (Rect.block (s := S4096x3072) S512x3072.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x64.size a ≤ S2x16x2048x64.size a
  hwx1_0 : ∀ i : grid1.Coords, EltTy.bits .bf16 = 32 ∨ (Rect.block (s := S2x16x2048x64) S1x1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1x2048.size a ≤ S2x1x1x2048.size a
  hwx1_3 : ∀ i : grid1.Coords, EltTy.bits .f32 = 32 ∨ (Rect.block (s := S2x1x1x2048) S1x1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256x64.size a ≤ S2x16x2048x64.size a
  hwx1_4 : ∀ i : grid1.Coords, EltTy.bits .bf16 = 32 ∨ (Rect.block (s := S2x16x2048x64) S1x1x256x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x2048x256.size a ≤ S2x16x2048x2048.size a
  hwx1_5 : ∀ i : grid1.Coords, EltTy.bits .f32 = 32 ∨ (Rect.block (s := S2x16x2048x2048) S1x1x2048x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v3) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1x1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_0) S1x1x256x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v20_1) S1x1x2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S2x1x1x2048 : Shape := ⟨4, ![2, 1, 1, 2048]⟩
abbrev S1024x3072 : Shape := ⟨2, ![1024, 3072]⟩
abbrev S1024x1024 : Shape := ⟨2, ![1024, 1024]⟩
abbrev S2x2048x3072 : Shape := ⟨3, ![2, 2048, 3072]⟩
abbrev S2x2048x16x64 : Shape := ⟨4, ![2, 2048, 16, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1x2048, .f32⟩
  | .hbm, ⟨2, _⟩ => ⟨S1024x3072, .f32⟩
  | .hbm, ⟨3, _⟩ => ⟨S1024x1024, .f32⟩
  | .hbm, ⟨4, _⟩ => ⟨S2x2048x3072, .f32⟩
  | .hbm, ⟨5, _⟩ => ⟨S2x2048x1024, .f32⟩
  | .hbm, ⟨6, _⟩ => ⟨S2x2048x1024, .f32⟩
  | .hbm, ⟨7, _⟩ => ⟨S2x2048x1024, .f32⟩
  | .hbm, ⟨8, _⟩ => ⟨S2x2048x16x64, .f32⟩
  | .hbm, ⟨9, _⟩ => ⟨S2x16x2048x64, .f32⟩
  | .hbm, ⟨10, _⟩ => ⟨S_, .f32⟩
  | .hbm, ⟨11, _⟩ => ⟨S2x16x2048x64, .f32⟩
  | .hbm, ⟨12, _⟩ => ⟨S2x16x2048x64, .f32⟩
  | .hbm, ⟨13, _⟩ => ⟨S2x2048x16x64, .f32⟩
  | .hbm, ⟨14, _⟩ => ⟨S2x16x2048x64, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S_, .f32⟩
  | .hbm, ⟨21, _⟩ => ⟨S2x16x2048, .f32⟩
  | .hbm, ⟨22, _⟩ => ⟨S_, .f32⟩
  | .hbm, ⟨23, _⟩ => ⟨S2x16x2048, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x2048, .f32⟩
  | .hbm, ⟨29, _⟩ => ⟨S_, .f32⟩
  | .hbm, ⟨30, _⟩ => ⟨S2x16x2048, .f32⟩
  | .hbm, ⟨31, _⟩ => ⟨S2x16x2048x1, .f32⟩
  | .hbm, ⟨32, _⟩ => ⟨S2x16x2048x2048, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x64 : S_.BroadcastsInDim S2x16x2048x64 (![] : Fin 0 → Fin S2x16x2048x64.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x2048_S2x16x2048x2048_0_1_3_2 : S2x16x2048x2048.Transposes [0, 1, 3, 2] S2x16x2048x2048
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x3072_S2x2048x3072_2_0_01_1_n_n_wf : DotDims.WF S2x2048x1024 S1024x3072 S2x2048x3072 [2] [0] [0, 1] [1] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_0_01_1_n_n_wf : DotDims.WF S2x2048x1024 S1024x1024 S2x2048x1024 [2] [0] [0, 1] [1] [] []

variable [Facts₀]

def dot_S2x2048x1024_S1024x3072_S2x2048x3072_2_0_01_1_n_n : DotDims S2x2048x1024 S1024x3072 S2x2048x3072 where
  lhsContracting := [2]
  rhsContracting := [0]
  lhsNonContracting := [0, 1]
  rhsNonContracting := [1]
  lhsBatch := []
  rhsBatch := []
  wf := dot_S2x2048x1024_S1024x3072_S2x2048x3072_2_0_01_1_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_0_01_1_n_n : DotDims S2x2048x1024 S1024x1024 S2x2048x1024 where
  lhsContracting := [2]
  rhsContracting := [0]
  lhsNonContracting := [0, 1]
  rhsNonContracting := [1]
  lhsBatch := []
  rhsBatch := []
  wf := dot_S2x2048x1024_S1024x1024_S2x2048x1024_2_0_01_1_n_n_wf

class Facts : Prop extends Facts₀ where

variable [Facts]
-- ==== Proof.Walk.lean ====
/-
  What each region of the kernel's program is entered with, and where the two results come from: the buffer contents
  at the boundaries between the host stretches and the three regions, read at the buffers that matter.
-/
import proofs.«105350_j10763188044553_1_alg».proof.Proof.Gen.KernelIdeal.Frame
import Idealize.ShloMosaic.Lib.StableHlo.Run
import Idealize.ShloMosaic.PureOps.Ideal
set_option maxRecDepth 16384

noncomputable section

namespace Cert.KernelIdeal.Walk

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The four argument arrays as launched, at their literal types. -/
abbrev a0 (c : Dev nD) : FVec Ideal S2x2048x1024 .f32 := m ((c : Thread nD τ).loc main_arg0)
abbrev a1 (c : Dev nD) : FVec Ideal S2x1x1x2048 .f32 := m ((c : Thread nD τ).loc main_arg1)
abbrev a2 (c : Dev nD) : FVec Ideal S1024x3072 .f32 := m ((c : Thread nD τ).loc main_arg2)
abbrev a3 (c : Dev nD) : FVec Ideal S1024x1024 .f32 := m ((c : Thread nD τ).loc main_arg3)

/-- Region 0's output array when region 0 is left. -/
abbrev qkv (c : Dev nD) : FVec Ideal S4096x3072 .f32 := V2 m ρ c main_v4
/-- Region 1's first output array (the context) when region 1 is left. -/
abbrev ctx (c : Dev nD) : FVec Ideal S2x16x2048x64 .bf16 := V4 m ρ c main_v20_0
/-- Region 2's output array when region 2 is left. -/
abbrev outFlat (c : Dev nD) : FVec Ideal S4096x1024 .f32 := V6 m ρ c main_v24

/-- A host stretch leaves alone every buffer that none of its operations writes: the list of operations is walked,
    each one's written buffer compared with the buffer read. -/
local macro "untouched_by " ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- Region 0's left operand: the tokens, rows flattened. -/
theorem entry0_tokens (c : Dev nD) :
    (V1 m ρ c main_v3 : FVec Ideal S4096x1024 .bf16) = shapeCast S4096x1024 (truncf (F := Ideal) .bf16 (a0 m c) bitsLt_bf16_f32) shapeCasts_S2x2048x1024_S4096x1024 := by
  -- the stretch's operations, each read at the buffer it writes, composed back to the contents it was entered with
  show StableHlo.after hostOps0 (W0 m ρ c) (Proc.devRef .tc main_v3) = _
  after_results
  rfl

/-- Region 0's right operand: the projection weights. -/
theorem entry0_weights (c : Dev nD) :
    (V1 m ρ c main_v1 : FVec Ideal S1024x3072 .bf16) = truncf (F := Ideal) .bf16 (a2 m c) bitsLt_bf16_f32 := by
  -- the stretch's operations, each read at the buffer it writes, composed back to the contents it was entered with
  show StableHlo.after hostOps0 (W0 m ρ c) (Proc.devRef .tc main_v1) = _
  after_results

/-- The queries region 1 is entered with: the first third of the projection, split into heads, scaled. -/
theorem entry1_q (c : Dev nD) :
    (V3 m ρ c main_v17 : FVec Ideal S2x16x2048x64 .bf16) = truncf (F := Ideal) .bf16 (mulf (transpose S2x16x2048x64 [0, 2, 1, 3] (shapeCast S2x2048x16x64 (extractStridedSlice S2x2048x1024 ![0, 0, 0] (shapeCast S2x2048x3072 (qkv m ρ c) shapeCasts_S4096x3072_S2x2048x3072) slices_S2x2048x3072_S2x2048x1024_0_0_0) shapeCasts_S2x2048x1024_S2x2048x16x64) transposes_S2x2048x16x64_S2x16x2048x64_0_2_1_3) (broadcastInDim S2x16x2048x64 ![] bcast_S_S2x16x2048x64 (constant (F := Ideal) S_ .f32 0x3E000000#32))) bitsLt_bf16_f32 := by
  -- the stretch's operations, each read at the buffer it writes, composed back to the contents it was entered with
  show StableHlo.after hostOps1 (W2 m ρ c) (Proc.devRef .tc main_v17) = _
  after_results
  rfl

/-- The keys: the second third, split into heads. -/
theorem entry1_k (c : Dev nD) :
    (V3 m ρ c main_v18 : FVec Ideal S2x16x2048x64 .bf16) = truncf (F := Ideal) .bf16 (transpose S2x16x2048x64 [0, 2, 1, 3] (shapeCast S2x2048x16x64 (extractStridedSlice S2x2048x1024 ![0, 0, 1024] (shapeCast S2x2048x3072 (qkv m ρ c) shapeCasts_S4096x3072_S2x2048x3072) slices_S2x2048x3072_S2x2048x1024_0_0_1024) shapeCasts_S2x2048x1024_S2x2048x16x64) transposes_S2x2048x16x64_S2x16x2048x64_0_2_1_3) bitsLt_bf16_f32 := by
  -- the stretch's operations, each read at the buffer it writes, composed back to the contents it was entered with
  show StableHlo.after hostOps1 (W2 m ρ c) (Proc.devRef .tc main_v18) = _
  after_results
  rfl

/-- The values: the last third, split into heads. -/
theorem entry1_v (c : Dev nD) :
    (V3 m ρ c main_v19 : FVec Ideal S2x16x2048x64 .bf16) = truncf (F := Ideal) .bf16 (transpose S2x16x2048x64 [0, 2, 1, 3] (shapeCast S2x2048x16x64 (extractStridedSlice S2x2048x1024 ![0, 0, 2048] (shapeCast S2x2048x3072 (qkv m ρ c) shapeCasts_S4096x3072_S2x2048x3072) slices_S2x2048x3072_S2x2048x1024_0_0_2048) shapeCasts_S2x2048x1024_S2x2048x16x64) transposes_S2x2048x16x64_S2x16x2048x64_0_2_1_3) bitsLt_bf16_f32 := by
  -- the stretch's operations, each read at the buffer it writes, composed back to the contents it was entered with
  show StableHlo.after hostOps1 (W2 m ρ c) (Proc.devRef .tc main_v19) = _
  after_results
  rfl

/-- The bias reaches region 1 as launched. -/
theorem entry1_bias (c : Dev nD) : (V3 m ρ c main_arg1 : FVec Ideal S2x1x1x2048 .f32) = a1 m c :=
  -- neither host stretch writes the bias, and it is no array of region 0
  calc W3 m ρ c (Proc.devRef .tc main_arg1)
    _ = W2 m ρ c (Proc.devRef .tc main_arg1) := by untouched_by hostOps1
    _ = W1 m ρ c (Proc.devRef .tc main_arg1) := W2_of_ne m ρ c main_arg1 (by decide)
    _ = W0 m ρ c (Proc.devRef .tc main_arg1) := by untouched_by hostOps0
    _ = m ((c : Thread nD τ).loc main_arg1) := rfl

/-- Region 2's left operand: the context with the heads combined and the rows flattened. -/
theorem entry2_x (c : Dev nD) :
    (V5 m ρ c main_v23 : FVec Ideal S4096x1024 .bf16) = shapeCast S4096x1024 (shapeCast S2x2048x1024 (transpose S2x2048x16x64 [0, 2, 1, 3] (ctx m ρ c) transposes_S2x16x2048x64_S2x2048x16x64_0_2_1_3) shapeCasts_S2x2048x16x64_S2x2048x1024) shapeCasts_S2x2048x1024_S4096x1024 := by
  -- the stretch's operations, each read at the buffer it writes, composed back to the contents it was entered with
  show StableHlo.after hostOps2 (W4 m ρ c) (Proc.devRef .tc main_v23) = _
  after_results
  rfl

/-- Region 2's right operand: the output weights, written before region 0 and untouched since. -/
theorem entry2_w (c : Dev nD) :
    (V5 m ρ c main_v2 : FVec Ideal S1024x1024 .bf16) = truncf (F := Ideal) .bf16 (a3 m c) bitsLt_bf16_f32 :=
  -- written by the first stretch's third operation; no later stretch writes it and it is no array of regions 0 and 1
  calc W5 m ρ c (Proc.devRef .tc main_v2)
    _ = W4 m ρ c (Proc.devRef .tc main_v2) := by untouched_by hostOps2
    _ = W3 m ρ c (Proc.devRef .tc main_v2) := W4_of_ne m ρ c main_v2 (by decide)
    _ = W2 m ρ c (Proc.devRef .tc main_v2) := by untouched_by hostOps1
    _ = W1 m ρ c (Proc.devRef .tc main_v2) := W2_of_ne m ρ c main_v2 (by decide)
    _ = truncf (F := Ideal) .bf16 (a3 m c) bitsLt_bf16_f32 := by
          show StableHlo.after hostOps0 (W0 m ρ c) (Proc.devRef .tc main_v2) = _
          after_results

/-- The first result: region 2's array with the rows unflattened. -/
theorem exit_out (c : Dev nD) :
    (W7 m ρ c (Proc.devRef .tc main_v25) : FVec Ideal S2x2048x1024 .f32) = shapeCast S2x2048x1024 (outFlat m ρ c) shapeCasts_S4096x1024_S2x2048x1024 := by
  -- the stretch's operations, each read at the buffer it writes, composed back to the contents it was entered with
  show StableHlo.after hostOps3 (W6 m ρ c) (Proc.devRef .tc main_v25) = _
  after_results
  rfl

/-- The second result: region 1's second output array, untouched after that region. -/
theorem exit_align (c : Dev nD) :
    (W7 m ρ c (Proc.devRef .tc main_v20_1) : FVec Ideal S2x16x2048x2048 .f32) = V4 m ρ c main_v20_1 :=
  -- the last two stretches do not write it and it is no array of region 2
  calc W7 m ρ c (Proc.devRef .tc main_v20_1)
    _ = W6 m ρ c (Proc.devRef .tc main_v20_1) := by untouched_by hostOps3
    _ = W5 m ρ c (Proc.devRef .tc main_v20_1) := W6_of_ne m ρ c main_v20_1 (by decide)
    _ = W4 m ρ c (Proc.devRef .tc main_v20_1) := by untouched_by hostOps2

end Cert.KernelIdeal.Walk

end
-- ==== Proof.Spec.lean ====
/-
  The mathematics both programs compute, as functions of arrays of extended reals, index by index.

  * `prodQKV`, `prodOut`: a matrix product with the token rows flattened, `(r, e) ↦ ∑ₖ a[r,k] · w[k,e]`.
  * `logit`: one attention score `∑_d q[b,h,i,d] · k[b,h,j,d] + bias[b,0,0,j]`.
  * `softmaxRow`: the softmax of one row of 2048 scores, `exp (rⱼ - M) / ∑ⱼ' exp (rⱼ' - M)` with `M` the
    maximum of the row taken from the word of −∞ (kept as that word: it is never evaluated).
  * `alignOf`: the attention weights with the key axis before the query axis; `ctxOf`: the weights applied to
    the values, `∑ⱼ p[b,h,i,j] · v[b,h,j,d]`.
-/
import Idealize.ShloMosaic.PureOps.Ideal
import Idealize.ShloMosaic.Lib.ValueIdx

noncomputable section

namespace Cert.Spec

open Idealize.ShloMosaic Idealize.ShloMosaic.ValueIdx

abbrev T4096x1024 : Shape := ⟨2, ![4096, 1024]⟩
abbrev T1024x3072 : Shape := ⟨2, ![1024, 3072]⟩
abbrev T4096x3072 : Shape := ⟨2, ![4096, 3072]⟩
abbrev T1024x1024 : Shape := ⟨2, ![1024, 1024]⟩
abbrev T2x16x2048x64 : Shape := ⟨4, ![2, 16, 2048, 64]⟩
abbrev T2x16x2048x2048 : Shape := ⟨4, ![2, 16, 2048, 2048]⟩
abbrev T2x1x1x2048 : Shape := ⟨4, ![2, 1, 1, 2048]⟩

/-- The projection onto queries, keys and values: row `r` of the flattened tokens against column `e`. -/
def prodQKV (a : T4096x1024.Idx → EReal) (w : T1024x3072.Idx → EReal) : T4096x3072.Idx → EReal :=
  fun j => ∑ k : Fin 1024, a (ix2 (n0 := 4096) (n1 := 1024) ⟨(j 0).val, (j 0).isLt⟩ k)
    * w (ix2 (n0 := 1024) (n1 := 3072) k ⟨(j 1).val, (j 1).isLt⟩)

/-- The output projection: row `r` of the flattened combined heads against column `e`. -/
def prodOut (a : T4096x1024.Idx → EReal) (w : T1024x1024.Idx → EReal) : T4096x1024.Idx → EReal :=
  fun j => ∑ k : Fin 1024, a (ix2 (n0 := 4096) (n1 := 1024) ⟨(j 0).val, (j 0).isLt⟩ k)
    * w (ix2 (n0 := 1024) (n1 := 1024) k ⟨(j 1).val, (j 1).isLt⟩)

/-- The word of −∞ from which both programs start a row's maximum. -/
abbrev ninf : EReal := Ideal.ofBits .f32 0xFF800000#32

/-- A row's maximum, taken from −∞ and once more against −∞. -/
def rowMax (r : Fin 2048 → EReal) : EReal := max ninf ((Finset.univ : Finset (Fin 2048)).fold max ninf r)

/-- The softmax of one row at position `j`. -/
def softmaxRow (r : Fin 2048 → EReal) (j : Fin 2048) : EReal :=
  Ideal.div (Ideal.exp (r j - rowMax r)) (∑ j' : Fin 2048, Ideal.exp (r j' - rowMax r))

/-- One attention score: query `i` against key `j` of head `h` of batch `b`, plus the key's bias. -/
def logit (q k : T2x16x2048x64.Idx → EReal) (bias : T2x1x1x2048.Idx → EReal)
    (b : Fin 2) (h : Fin 16) (i j : Fin 2048) : EReal :=
  (∑ d : Fin 64, q (ix4 (n0 := 2) (n1 := 16) (n2 := 2048) (n3 := 64) b h i d)
      * k (ix4 (n0 := 2) (n1 := 16) (n2 := 2048) (n3 := 64) b h j d))
    + bias (ix4 (n0 := 2) (n1 := 1) (n2 := 1) (n3 := 2048) b 0 0 j)

/-- The attention weight of query `i` on key `j`. -/
def prob (q k : T2x16x2048x64.Idx → EReal) (bias : T2x1x1x2048.Idx → EReal)
    (b : Fin 2) (h : Fin 16) (i j : Fin 2048) : EReal :=
  softmaxRow (logit q k bias b h i) j

/-- The weights laid out [batch, head, key, query]. -/
def alignOf (q k : T2x16x2048x64.Idx → EReal) (bias : T2x1x1x2048.Idx → EReal) : T2x16x2048x2048.Idx → EReal :=
  fun x => prob q k bias ⟨(x 0).val, (x 0).isLt⟩ ⟨(x 1).val, (x 1).isLt⟩ ⟨(x 3).val, (x 3).isLt⟩ ⟨(x 2).val, (x 2).isLt⟩

/-- The weights applied to the values, laid out [batch, head, query, depth]. -/
def ctxOf (q k v : T2x16x2048x64.Idx → EReal) (bias : T2x1x1x2048.Idx → EReal) : T2x16x2048x64.Idx → EReal :=
  fun x => ∑ j : Fin 2048, prob q k bias ⟨(x 0).val, (x 0).isLt⟩ ⟨(x 1).val, (x 1).isLt⟩ ⟨(x 2).val, (x 2).isLt⟩ j
    * v (ix4 (n0 := 2) (n1 := 16) (n2 := 2048) (n3 := 64) ⟨(x 0).val, (x 0).isLt⟩ ⟨(x 1).val, (x 1).isLt⟩ j ⟨(x 3).val, (x 3).isLt⟩)

end Cert.Spec

end
-- ==== Proof.Region0.lean ====
/-
  Region 0, the projection onto queries, keys and values: 8 grid points, point `t` multiplying rows
  `512 t … 512 t + 511` of the flattened tokens by the whole weight matrix. Every point's block of the output is the
  block of ONE function of the two operand arrays, and the blocks tile the output: the array after the region is that function.
-/
import proofs.«105350_j10763188044553_1_alg».proof.Proof.Gen.KernelIdeal.Frame
import proofs.«105350_j10763188044553_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-! ## The body's matrix product at an index -/

/-- The left operand's index at output `i` and contraction index `q`: its row is the output's row, -/
theorem dotL_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- its column the contraction index; -/
theorem dotL_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- the right operand's row is the contraction index, -/
theorem dotR_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- its column the output's column. -/
theorem dotR_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- What the body stores, read at row `r` and column `e` of its block: the sum over the contraction index of the
    products of the two loaded blocks (the casts are to the same shape; the accumulator is the zero word). -/
theorem pay_apply (x0 : Vec Ideal S512x1024 .bf16) (x1 : Vec Ideal S1024x3072 .bf16) (r : Fin 512) (e : Fin 3072) :
    k0_pay1 (F := Ideal) x0 x1 (ix2 r e) = ∑ k : Fin 1024, x0 (ix2 r k) * x1 (ix2 k e) := by
  unfold k0_pay1
  rw [shapeCast_self, shapeCast_self]
  refine (Ideal.matmul_constant_zero_apply (φ₁ := .bf16) (φ₂ := .bf16) dot_S512x1024_S1024x3072_S512x3072_1_0_0_1_n_n none x0 x1 (ix2 r e)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r e) ((contrEquiv1 dot_S512x1024_S1024x3072_S512x3072_1_0_0_1_n_n 1024 rfl rfl).symm k) = ix2 r k := funext fun a => Fin.ext (by
    match a with
    | ⟨0, _⟩ => exact dotL_0 _ _
    | ⟨1, _⟩ => exact (dotL_1 _ _).trans hk)
  have er : dot_S512x1024_S1024x3072_S512x3072_1_0_0_1_n_n.rhsIdx (ix2 r e) ((contrEquiv1 dot_S512x1024_S1024x3072_S512x3072_1_0_0_1_n_n 1024 rfl rfl).symm k) = ix2 k e := funext fun a => Fin.ext (by
    match a with
    | ⟨0, _⟩ => exact (dotR_0 _ _).trans hk
    | ⟨1, _⟩ => exact dotR_1 _ _)
  rw [el, er]

/-! ## From the blocks to the array -/

/-- The two zero offsets of a whole-buffer access are the constant zero function. -/
theorem zeros2 : (![0, 0] : Fin 2 → Nat) = fun _ => 0 := funext fun a => by fin_cases a <;> rfl

/-- The product of the two operand arrays the region is entered with, whole. -/
abbrev prodAt (c : Dev nD) : FVec Ideal S4096x3072 .f32 :=
  Cert.Spec.prodQKV (V c main_v3 : FVec Ideal S4096x1024 .bf16) (V c main_v1 : FVec Ideal S1024x3072 .bf16)

/-- The printed index maps, decided over the eight points: the token window sits at the output window's block row,
    every other block index is zero, and the output's block row is one of the eight. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every block row of the output is some point's. -/
theorem idx_onto : ∀ q : Fin 8, ∃ t : Fin cfg0.N, win0_2.index t = ![q.val, 0] :=
  (by decide +kernel : ∀ q : Fin 8, ∃ t : Fin grid0.N, win0_2.index t = ![q.val, 0])

/-- What point `t` writes back is block `t` of the product of the arrays the region is entered with: the body's sum at
    row `r` of the block reads the token array at row `512 · index + r`, the output's own row, and the weight array whole. -/
theorem flushed_eq (c : Dev nD) (t : Fin cfg0.N) :
    (dat0 V c).flushed 2 t = ((cfg0.win 2).blk t).view.read (Elt Ideal) (prodAt V c) := by
  show (cfg0.win 2).cut (grid0.coords t) ((dat0 V c).after 2 t) = _
  rw [after0_2]
  unfold out0_2
  rw [View.canon_unit_zero zeros2]
  simp only [View.ld_unit_zero (S := S512x1024) zeros2, View.ld_unit_zero (S := S1024x3072) zeros2]
  obtain ⟨e0, e1, e2, e3, e4, e5⟩ := idx_facts t
  refine funext fun (j : S512x3072.Idx) => ?_
  obtain ⟨r, e, rfl⟩ : ∃ (r : Fin 512) (e : Fin 3072), j = ix2 r e := ⟨j 0, j 1, eq_ix2 j⟩
  show k0_pay1 (F := Ideal) (iblk0 V c 0 t) (iblk0 V c 1 t) (ix2 r e) = prodAt V c (((cfg0.win 2).blk t).view.emb (ix2 r e))
  refine (pay_apply (iblk0 V c 0 t) (iblk0 V c 1 t) r e).trans ?_
  show _ = ∑ k : Fin 1024, _
  refine Finset.sum_congr rfl fun k _ => ?_
  -- the token block's element (r, k) is the array's at the output's row and column k
  have h0 : ((cfg0.win 0).blk t).view.emb (ix2 r k)
      = ix2 (n0 := 4096) (n1 := 1024) ⟨((((cfg0.win 2).blk t).view.emb (ix2 r e)) 0).val, ((((cfg0.win 2).blk t).view.emb (ix2 r e)) 0).isLt⟩ k := by
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 1024 + 1 * k.val = k.val; omega
  -- the weight block's element (k, e) is the array's at row k and the output's column
  have h1 : ((cfg0.win 1).blk t).view.emb (ix2 k e)
      = ix2 (n0 := 1024) (n1 := 3072) k ⟨((((cfg0.win 2).blk t).view.emb (ix2 r e)) 1).val, ((((cfg0.win 2).blk t).view.emb (ix2 r e)) 1).isLt⟩ := by
    funext a; apply Fin.ext
    match a with
    | ⟨0, _⟩ => show win0_1.index t (0 : Fin 2) * 1024 + 1 * k.val = k.val; omega
    | ⟨1, _⟩ => show win0_1.index t (1 : Fin 2) * 3072 + 1 * e.val = win0_2.index t (1 : Fin 2) * 3072 + 1 * e.val; omega
  have a0 : iblk0 V c 0 t (ix2 r k) = (V c main_v3 : FVec Ideal S4096x1024 .bf16) _ :=
    congrArg (V c main_v3 : FVec Ideal S4096x1024 .bf16) h0
  have a1 : iblk0 V c 1 t (ix2 k e) = (V c main_v1 : FVec Ideal S1024x3072 .bf16) _ :=
    congrArg (V c main_v1 : FVec Ideal S1024x3072 .bf16) h1
  rw [a0, a1]

/-- An index of the output array is in point `t`'s block iff each coordinate is in the block's range on its axis. -/
theorem mem_blk (t : Fin cfg0.N) (i : S4096x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v4).slice (win0_2.rect t)).set ↔ _
  rw [View.set_slice_whole, Rect.mem_set_unit]
  exact Iff.rfl

/-- The blocks tile the output array: row `r` lies in the block of the point whose block row is `r / 512`, and every
    column lies in the one block column. -/
theorem cover (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- The output array after region 0 is the matrix product of the arrays the region is entered with. -/
theorem arr_qkv (c : Dev nD) :
    ((dat0 V c).arrAt 2 cfg0.N : FVec Ideal S4096x3072 .f32)
      = Cert.Spec.prodQKV (V c main_v3 : FVec Ideal S4096x1024 .bf16) (V c main_v1 : FVec Ideal S1024x3072 .bf16) :=
  (dat0 V c).arrAt_eq_of_cover 2 (prodAt V c) (fun t _ => flushed_eq V c t) cover

end Cert.KernelIdeal.Region0

end
-- ==== Proof.Region1Body.lean ====
/-
  The attention body's arithmetic at an index. One grid point holds 256 queries `x0`, the 2048 keys `x1` and values `x2`
  of its head, and the bias `x3`. Its weights block at (i, j) is the softmax along the keys of the scores of query `i`;
  the block it writes to the weights output is the transpose; the context block is the weights applied to the values.
-/
import proofs.«105350_j10763188044553_1_alg».proof.Proof.Gen.KernelIdeal.Skeleton
import proofs.«105350_j10763188044553_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Region1Body

open Cert.KernelIdeal Cert.KernelIdeal.Gen
open Idealize.ShloMosaic Idealize.ShloMosaic.ValueIdx

/-- One block's score of its query `i` against key `j`: the dot product over the head's depth, plus the key's bias. -/
def blkLogit (x0 : Vec Ideal S1x1x256x64 .bf16) (x1 : Vec Ideal S1x1x2048x64 .bf16) (x3 : Vec Ideal S1x1x1x2048 .f32)
    (i : Fin 256) (j : Fin 2048) : EReal :=
  (∑ d : Fin 64, x0 (ix4 (n0 := 1) (n1 := 1) (n2 := 256) (n3 := 64) 0 0 i d)
      * x1 (ix4 (n0 := 1) (n1 := 1) (n2 := 2048) (n3 := 64) 0 0 j d))
    + x3 (ix4 (n0 := 1) (n1 := 1) (n2 := 1) (n3 := 2048) 0 0 0 j)

/-- A column of 256 row values cast to [256, 1] and broadcast along the keys reads, at (i, j), the value of row `i`. -/
theorem colBroadcast_apply (w : FVec Ideal S256 .f32) (i : Fin 256) (j : Fin 2048) :
    broadcastTo S256x2048 (shapeCast S256x1 w shapeCasts_S256_S256x1) broadcasts_S256x1_S256x2048 (ix2 (n0 := 256) (n1 := 2048) i j)
      = w (ix1 (n := 256) i) := by
  refine (broadcastTo_apply _ broadcasts_S256x1_S256x2048 (ix2 (n0 := 256) (n1 := 2048) i j) (ix2 (n0 := 256) (n1 := 1) i 0) fun a => ?_).trans ?_
  · match a with
    | ⟨0, _⟩ => rfl
    | ⟨1, _⟩ => rfl
  · refine shapeCast_apply w shapeCasts_S256_S256x1 (ix2 (n0 := 256) (n1 := 1) i 0) (ix1 (n := 256) i) ?_
    rw [Shape.rowMajor_val_one, Shape.rowMajor_val_two]
    show i.val = i.val * 1 + 0
    omega

/-- Over row `i`, the index with key coordinate `k` inserted is `(i, k)`. -/
theorem lift_row (i : Fin 256) (k : Fin 2048) :
    reduces_S256x2048_S256.lift (ix1 (n := 256) i) k = ix2 (n0 := 256) (n1 := 2048) i k := by
  funext c
  refine Fin.ext ?_
  match c with
  | ⟨0, _⟩ => rfl
  | ⟨1, _⟩ => rfl

/-- The row maxima of a [256, 2048] array: the reduction along the keys from the word of −∞, once more against −∞. -/
def rowMaxVec (S : FVec Ideal S256x2048 .f32) : FVec Ideal S256 .f32 :=
  maximumf (broadcast S256 (Scalar.ofBits (F := Ideal) .f32 0xFF800000#32))
    (multiReduction (F := Ideal) .maximumf [1] S256 S 0xFF800000#32 reduces_S256x2048_S256 (.inl rfl) rfl)

/-- The exponentials of an array's entries less their row's maximum. -/
def expVec (S : FVec Ideal S256x2048 .f32) : FVec Ideal S256x2048 .f32 :=
  exp (subf S (broadcastTo S256x2048 (shapeCast S256x1 (rowMaxVec S) shapeCasts_S256_S256x1) broadcasts_S256x1_S256x2048))

/-- The softmax along the keys of a [256, 2048] array, operation by operation. -/
def softmaxVec (S : FVec Ideal S256x2048 .f32) : FVec Ideal S256x2048 .f32 :=
  divf (expVec S) (broadcastTo S256x2048 (shapeCast S256x1
    (multiReduction (F := Ideal) .add [1] S256 (expVec S) 0x00000000#32 reduces_S256x2048_S256 (.inl rfl) rfl)
    shapeCasts_S256_S256x1) broadcasts_S256x1_S256x2048)

/-- The maximum of row `i` is the fold of `max` over the row's entries. -/
theorem rowMaxVec_apply (S : FVec Ideal S256x2048 .f32) (i : Fin 256) :
    rowMaxVec S (ix1 (n := 256) i) = Cert.Spec.rowMax (fun j => S (ix2 (n0 := 256) (n1 := 2048) i j)) := by
  unfold rowMaxVec
  refine (maximumf_apply _ _ _).trans ?_
  refine (congrArg (max _) (Ideal.multiReduction_maximumf_single S 0xFF800000#32 reduces_S256x2048_S256 (.inl rfl) rfl (ix1 (n := 256) i))).trans ?_
  have e : (S ∘ reduces_S256x2048_S256.lift (ix1 (n := 256) i)) = fun j => S (ix2 (n0 := 256) (n1 := 2048) i j) :=
    funext fun k => congrArg S (lift_row i k)
  rw [e]
  rfl

/-- The sum along the keys of row `i` is the sum of the row's entries. -/
theorem rowSumRed_apply (v : FVec Ideal S256x2048 .f32) (i : Fin 256) :
    multiReduction (F := Ideal) .add [1] S256 v 0x00000000#32 reduces_S256x2048_S256 (.inl rfl) rfl (ix1 (n := 256) i)
      = ∑ j : Fin 2048, v (ix2 (n0 := 256) (n1 := 2048) i j) := by
  refine (Ideal.multiReduction_add_single v 0x00000000#32 reduces_S256x2048_S256 (.inl rfl) rfl (ix1 (n := 256) i)).trans ?_
  exact Finset.sum_congr rfl fun k _ => congrArg v (lift_row i k)

/-- An exponential at (i, j): of the entry less the maximum of row `i`. -/
theorem expVec_apply (S : FVec Ideal S256x2048 .f32) (i : Fin 256) (j : Fin 2048) :
    expVec S (ix2 (n0 := 256) (n1 := 2048) i j)
      = Ideal.exp (S (ix2 (n0 := 256) (n1 := 2048) i j) - Cert.Spec.rowMax (fun j' => S (ix2 (n0 := 256) (n1 := 2048) i j'))) := by
  have h : broadcastTo S256x2048 (shapeCast S256x1 (rowMaxVec S) shapeCasts_S256_S256x1) broadcasts_S256x1_S256x2048
      (ix2 (n0 := 256) (n1 := 2048) i j) = Cert.Spec.rowMax (fun j' => S (ix2 (n0 := 256) (n1 := 2048) i j')) :=
    (colBroadcast_apply (rowMaxVec S) i j).trans (rowMaxVec_apply S i)
  exact congrArg (fun m => Ideal.exp (S (ix2 (n0 := 256) (n1 := 2048) i j) - m)) h

/-- The softmax at (i, j) is the softmax of row `i` at `j`. -/
theorem softmaxVec_apply (S : FVec Ideal S256x2048 .f32) (i : Fin 256) (j : Fin 2048) :
    softmaxVec S (ix2 (n0 := 256) (n1 := 2048) i j)
      = Cert.Spec.softmaxRow (fun j' => S (ix2 (n0 := 256) (n1 := 2048) i j')) j := by
  have hs : broadcastTo S256x2048 (shapeCast S256x1
      (multiReduction (F := Ideal) .add [1] S256 (expVec S) 0x00000000#32 reduces_S256x2048_S256 (.inl rfl) rfl)
      shapeCasts_S256_S256x1) broadcasts_S256x1_S256x2048 (ix2 (n0 := 256) (n1 := 2048) i j)
      = ∑ j' : Fin 2048, Ideal.exp (S (ix2 (n0 := 256) (n1 := 2048) i j') - Cert.Spec.rowMax (fun j'' => S (ix2 (n0 := 256) (n1 := 2048) i j''))) :=
    ((colBroadcast_apply _ i j).trans (rowSumRed_apply (expVec S) i)).trans
      (Finset.sum_congr rfl fun j' _ => expVec_apply S i j')
  unfold softmaxVec Cert.Spec.softmaxRow
  refine (divf_apply _ _ _).trans ?_
  rw [hs, expVec_apply]

/-! ### The scores product's operand indices, axis by axis -/

theorem lhsS_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhsS_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhsS_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhsS_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- The product of two blocks with their two leading unit axes dropped, contracted over the depth of both. -/
theorem qk_apply (x0 : Vec Ideal S1x1x256x64 .bf16) (x1 : Vec Ideal S1x1x2048x64 .bf16) (i : Fin 256) (j : Fin 2048) :
    matmul (F := Ideal) (φ₁ := .bf16) (φ₂ := .bf16) dot_S256x64_S2048x64_S256x2048_1_1_0_0_n_n none (shapeCast S256x64 x0 shapeCasts_S1x1x256x64_S256x64)
        (shapeCast S2048x64 x1 shapeCasts_S1x1x2048x64_S2048x64) (constant (F := Ideal) S256x2048 .f32 0x00000000#32)
        (ix2 (n0 := 256) (n1 := 2048) i j)
      = ∑ d : Fin 64, x0 (ix4 (n0 := 1) (n1 := 1) (n2 := 256) (n3 := 64) 0 0 i d)
          * x1 (ix4 (n0 := 1) (n1 := 1) (n2 := 2048) (n3 := 64) 0 0 j d) := by
  refine (Ideal.matmul_constant_zero_apply dot_S256x64_S2048x64_S256x2048_1_1_0_0_n_n none _ _ _).trans ?_
  rw [← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el := shapeCast_apply x0 shapeCasts_S1x1x256x64_S256x64
    (dot_S256x64_S2048x64_S256x2048_1_1_0_0_n_n.lhsIdx (ix2 (n0 := 256) (n1 := 2048) i j) ((contrEquiv1 dot_S256x64_S2048x64_S256x2048_1_1_0_0_n_n 64 rfl rfl).symm k))
    (ix4 (n0 := 1) (n1 := 1) (n2 := 256) (n3 := 64) 0 0 i k) (by
      rw [Shape.rowMajor_val_four, Shape.rowMajor_val_two, lhsS_0, lhsS_1, hk]
      show ((0 * 1 + 0) * 256 + i.val) * 64 + k.val = i.val * 64 + k.val
      omega)
  have er := shapeCast_apply x1 shapeCasts_S1x1x2048x64_S2048x64
    (dot_S256x64_S2048x64_S256x2048_1_1_0_0_n_n.rhsIdx (ix2 (n0 := 256) (n1 := 2048) i j) ((contrEquiv1 dot_S256x64_S2048x64_S256x2048_1_1_0_0_n_n 64 rfl rfl).symm k))
    (ix4 (n0 := 1) (n1 := 1) (n2 := 2048) (n3 := 64) 0 0 j k) (by
      rw [Shape.rowMajor_val_four, Shape.rowMajor_val_two, rhsS_0, rhsS_1, hk]
      show ((0 * 1 + 0) * 2048 + j.val) * 64 + k.val = j.val * 64 + k.val
      omega)
  rw [el, er]

/-- The bias row, read at any query and key `j`. -/
theorem bias_apply (x3 : Vec Ideal S1x1x1x2048 .f32) (i : Fin 256) (j : Fin 2048) :
    broadcastTo S256x2048 (shapeCast S1x2048 (shapeCast S2048 x3 shapeCasts_S1x1x1x2048_S2048) shapeCasts_S2048_S1x2048)
        broadcasts_S1x2048_S256x2048 (ix2 (n0 := 256) (n1 := 2048) i j)
      = x3 (ix4 (n0 := 1) (n1 := 1) (n2 := 1) (n3 := 2048) 0 0 0 j) := by
  refine (broadcastTo_1b_ab_apply _ broadcasts_S1x2048_S256x2048 i j).trans ?_
  refine (shapeCast_a_1a_apply _ shapeCasts_S2048_S1x2048 0 j).trans ?_
  refine shapeCast_apply x3 shapeCasts_S1x1x1x2048_S2048 (ix1 (n := 2048) j) (ix4 (n0 := 1) (n1 := 1) (n2 := 1) (n3 := 2048) 0 0 0 j) ?_
  rw [Shape.rowMajor_val_four, Shape.rowMajor_val_one]
  show ((0 * 1 + 0) * 1 + 0) * 2048 + j.val = j.val
  omega

/-- The scores of one block: queries against keys over the depth, plus the bias row, operation by operation. -/
def scores (x0 : Vec Ideal S1x1x256x64 .bf16) (x1 : Vec Ideal S1x1x2048x64 .bf16) (x3 : Vec Ideal S1x1x1x2048 .f32) :
    FVec Ideal S256x2048 .f32 :=
  addf (matmul (F := Ideal) (φ₁ := .bf16) (φ₂ := .bf16) dot_S256x64_S2048x64_S256x2048_1_1_0_0_n_n none
      (shapeCast S256x64 x0 shapeCasts_S1x1x256x64_S256x64) (shapeCast S2048x64 x1 shapeCasts_S1x1x2048x64_S2048x64)
      (constant (F := Ideal) S256x2048 .f32 0x00000000#32))
    (broadcastTo S256x2048 (shapeCast S1x2048 (shapeCast S2048 x3 shapeCasts_S1x1x1x2048_S2048) shapeCasts_S2048_S1x2048)
      broadcasts_S1x2048_S256x2048)

/-- A score at (i, j). -/
theorem scores_apply (x0 : Vec Ideal S1x1x256x64 .bf16) (x1 : Vec Ideal S1x1x2048x64 .bf16) (x3 : Vec Ideal S1x1x1x2048 .f32)
    (i : Fin 256) (j : Fin 2048) :
    scores x0 x1 x3 (ix2 (n0 := 256) (n1 := 2048) i j) = blkLogit x0 x1 x3 i j := by
  unfold scores blkLogit
  refine (addf_apply _ _ _).trans ?_
  rw [qk_apply, bias_apply]

/-- The weights payload is the softmax of the scores. -/
theorem k1_pay2_eq (x0 : Vec Ideal S1x1x256x64 .bf16) (x1 : Vec Ideal S1x1x2048x64 .bf16) (x3 : Vec Ideal S1x1x1x2048 .f32) :
    k1_pay2 (F := Ideal) x0 x1 x3 = softmaxVec (scores x0 x1 x3) := rfl

/-- The weights of query `i` on key `j`. -/
theorem weights_apply (x0 : Vec Ideal S1x1x256x64 .bf16) (x1 : Vec Ideal S1x1x2048x64 .bf16) (x3 : Vec Ideal S1x1x1x2048 .f32)
    (i : Fin 256) (j : Fin 2048) :
    k1_pay2 (F := Ideal) x0 x1 x3 (ix2 (n0 := 256) (n1 := 2048) i j) = Cert.Spec.softmaxRow (blkLogit x0 x1 x3 i) j := by
  rw [k1_pay2_eq]
  refine (softmaxVec_apply _ i j).trans ?_
  exact congrArg (fun r => Cert.Spec.softmaxRow r j) (funext fun j' => scores_apply x0 x1 x3 i j')

/-- The block written to the weights output: keys before queries. -/
theorem align_block_apply (x0 : Vec Ideal S1x1x256x64 .bf16) (x1 : Vec Ideal S1x1x2048x64 .bf16) (x3 : Vec Ideal S1x1x1x2048 .f32)
    (j : Fin 2048) (i : Fin 256) :
    k1_pay1 (F := Ideal) (k1_pay4 (F := Ideal) x0 x1 x3) (ix4 (n0 := 1) (n1 := 1) (n2 := 2048) (n3 := 256) 0 0 j i)
      = Cert.Spec.softmaxRow (blkLogit x0 x1 x3 i) j := by
  unfold k1_pay1 k1_pay4
  -- the cast adding the two unit axes keeps the row-major position: (0, 0, j, i) reads (j, i)
  refine (shapeCast_apply _ shapeCasts_S2048x256_S1x1x2048x256 (ix4 (n0 := 1) (n1 := 1) (n2 := 2048) (n3 := 256) 0 0 j i)
    (ix2 (n0 := 2048) (n1 := 256) j i) ?_).trans ?_
  · rw [Shape.rowMajor_val_four, Shape.rowMajor_val_two]
    show j.val * 256 + i.val = ((0 * 1 + 0) * 2048 + j.val) * 256 + i.val
    omega
  -- the transpose reads (j, i) at (i, j)
  · refine (transpose_ix2_apply (k1_pay2 (F := Ideal) x0 x1 x3) transposes_S256x2048_p1_0_S2048x256 j i).trans ?_
    exact weights_apply x0 x1 x3 i j

/-! ### The context product's operand indices, axis by axis -/

theorem lhsC_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhsC_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhsC_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhsC_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- A [256, 2048] array times a values block with its two leading unit axes dropped, contracted over the keys. -/
theorem pv_apply (P : FVec Ideal S256x2048 .bf16) (x2 : Vec Ideal S1x1x2048x64 .bf16) (i : Fin 256) (d : Fin 64) :
    matmul (F := Ideal) (φ₁ := .bf16) (φ₂ := .bf16) dot_S256x2048_S2048x64_S256x64_1_0_0_1_n_n none P
        (shapeCast S2048x64 x2 shapeCasts_S1x1x2048x64_S2048x64) (constant (F := Ideal) S256x64 .f32 0x00000000#32)
        (ix2 (n0 := 256) (n1 := 64) i d)
      = ∑ j : Fin 2048, P (ix2 (n0 := 256) (n1 := 2048) i j)
          * x2 (ix4 (n0 := 1) (n1 := 1) (n2 := 2048) (n3 := 64) 0 0 j d) := by
  refine (Ideal.matmul_constant_zero_apply dot_S256x2048_S2048x64_S256x64_1_0_0_1_n_n none _ _ _).trans ?_
  rw [← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 (n0 := 256) (n1 := 64) i d)
      ((contrEquiv1 dot_S256x2048_S2048x64_S256x64_1_0_0_1_n_n 2048 rfl rfl).symm k) = ix2 (n0 := 256) (n1 := 2048) i k :=
    funext fun a => Fin.ext (by
      match a with
      | ⟨0, _⟩ => exact lhsC_0 _ _
      | ⟨1, _⟩ => exact (lhsC_1 _ _).trans hk)
  have er := shapeCast_apply x2 shapeCasts_S1x1x2048x64_S2048x64
    (dot_S256x2048_S2048x64_S256x64_1_0_0_1_n_n.rhsIdx (ix2 (n0 := 256) (n1 := 64) i d) ((contrEquiv1 dot_S256x2048_S2048x64_S256x64_1_0_0_1_n_n 2048 rfl rfl).symm k))
    (ix4 (n0 := 1) (n1 := 1) (n2 := 2048) (n3 := 64) 0 0 k d) (by
      rw [Shape.rowMajor_val_four, Shape.rowMajor_val_two, rhsC_0, rhsC_1, hk]
      show ((0 * 1 + 0) * 2048 + k.val) * 64 + d.val = k.val * 64 + d.val
      omega)
  rw [el, er]

/-- The context block: the weights of query `i` applied to the values, at depth `d`. -/
theorem ctx_block_apply (x0 : Vec Ideal S1x1x256x64 .bf16) (x1 : Vec Ideal S1x1x2048x64 .bf16) (x2 : Vec Ideal S1x1x2048x64 .bf16)
    (x3 : Vec Ideal S1x1x1x2048 .f32) (i : Fin 256) (d : Fin 64) :
    k1_pay3 (F := Ideal) x0 x1 x2 x3 (ix4 (n0 := 1) (n1 := 1) (n2 := 256) (n3 := 64) 0 0 i d)
      = ∑ j : Fin 2048, Cert.Spec.softmaxRow (blkLogit x0 x1 x3 i) j
          * x2 (ix4 (n0 := 1) (n1 := 1) (n2 := 2048) (n3 := 64) 0 0 j d) := by
  unfold k1_pay3
  -- the cast adding the two unit axes keeps the row-major position: (0, 0, i, d) reads (i, d)
  refine (shapeCast_apply _ shapeCasts_S256x64_S1x1x256x64 (ix4 (n0 := 1) (n1 := 1) (n2 := 256) (n3 := 64) 0 0 i d)
    (ix2 (n0 := 256) (n1 := 64) i d) ?_).trans ?_
  · rw [Shape.rowMajor_val_four, Shape.rowMajor_val_two]
    show i.val * 64 + d.val = ((0 * 1 + 0) * 256 + i.val) * 64 + d.val
    omega
  -- the format changes are the identity on extended reals; the product is the sum over the keys
  · refine (truncf_apply _ bitsLt_bf16_f32 _).trans ?_
    refine (pv_apply _ x2 i d).trans ?_
    exact Finset.sum_congr rfl fun j _ => congrArg (· * x2 (ix4 (n0 := 1) (n1 := 1) (n2 := 2048) (n3 := 64) 0 0 j d))
      ((truncf_apply _ bitsLt_bf16_f32 _).trans (weights_apply x0 x1 x3 i j))

end Cert.KernelIdeal.Region1Body

end
-- ==== Proof.Region1.lean ====
/-
  Region 1, the attention: grid (batch, head, query tile of 256). A point scores its 256 queries against all 2048 keys of its
  head, adds the bias, takes the softmax along the keys, applies the weights to the values (the context block) and writes
  the weights transposed (keys before queries) into its block of the second output.
-/
import proofs.«105350_j10763188044553_1_alg».proof.Proof.Gen.KernelIdeal.Frame
import proofs.«105350_j10763188044553_1_alg».proof.Proof.Spec
import proofs.«105350_j10763188044553_1_alg».proof.Proof.Region1Body
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem offZero : (![0, 0, 0, 0] : Fin 4 → Nat) = fun _ => 0 := funext fun a => by fin_cases a <;> rfl

/-- Where each window's block sits, as a function of the point's number. -/
theorem idx_facts : ∀ t : Fin cfg1.N,
    (win1_0.index t (0 : Fin 4) = t.val / 128 ∧ win1_0.index t (1 : Fin 4) = t.val / 8 % 16
      ∧ win1_0.index t (2 : Fin 4) = t.val % 8 ∧ win1_0.index t (3 : Fin 4) = 0)
    ∧ (win1_1.index t (0 : Fin 4) = t.val / 128 ∧ win1_1.index t (1 : Fin 4) = t.val / 8 % 16
      ∧ win1_1.index t (2 : Fin 4) = 0 ∧ win1_1.index t (3 : Fin 4) = 0)
    ∧ (win1_2.index t (0 : Fin 4) = t.val / 128 ∧ win1_2.index t (1 : Fin 4) = t.val / 8 % 16
      ∧ win1_2.index t (2 : Fin 4) = 0 ∧ win1_2.index t (3 : Fin 4) = 0)
    ∧ (win1_3.index t (0 : Fin 4) = t.val / 128 ∧ win1_3.index t (1 : Fin 4) = 0
      ∧ win1_3.index t (2 : Fin 4) = 0 ∧ win1_3.index t (3 : Fin 4) = 0)
    ∧ (win1_4.index t (0 : Fin 4) = t.val / 128 ∧ win1_4.index t (1 : Fin 4) = t.val / 8 % 16
      ∧ win1_4.index t (2 : Fin 4) = t.val % 8 ∧ win1_4.index t (3 : Fin 4) = 0)
    ∧ (win1_5.index t (0 : Fin 4) = t.val / 128 ∧ win1_5.index t (1 : Fin 4) = t.val / 8 % 16
      ∧ win1_5.index t (2 : Fin 4) = 0 ∧ win1_5.index t (3 : Fin 4) = t.val % 8) :=
  (by decide +kernel : ∀ t : Fin grid1.N, _)

/-- An entry of the query block is the query array's entry at the point's batch, head and tile. -/
theorem q_blk (c : Dev nD) (t : Fin cfg1.N) (i : Fin 256) (d : Fin 64) (b : Fin 2) (h : Fin 16) (i' : Fin 2048)
    (hb : b.val = t.val / 128) (hh : h.val = t.val / 8 % 16) (hi : i'.val = t.val % 8 * 256 + i.val) :
    (iblk1 V c 0 t : Vec Ideal S1x1x256x64 .bf16) (ix4 (n0 := 1) (n1 := 1) (n2 := 256) (n3 := 64) 0 0 i d)
      = (V c main_v17 : FVec Ideal S2x16x2048x64 .bf16) (ix4 (n0 := 2) (n1 := 16) (n2 := 2048) (n3 := 64) b h i' d) := by
  obtain ⟨⟨e0, e1, e2, e3⟩, -⟩ := idx_facts t
  show (V c main_v17 : FVec Ideal S2x16x2048x64 .bf16) (((cfg1.win 0).blk t).view.emb (ix4 (n0 := 1) (n1 := 1) (n2 := 256) (n3 := 64) 0 0 i d)) = _
  refine congrArg _ (funext fun a => Fin.ext ?_)
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 256 + 1 * i.val = i'.val; omega
  | ⟨3, _⟩ => show win1_0.index t (3 : Fin 4) * 64 + 1 * d.val = d.val; omega

/-- An entry of the key block is the key array's entry at the point's batch and head. -/
theorem k_blk (c : Dev nD) (t : Fin cfg1.N) (j : Fin 2048) (d : Fin 64) (b : Fin 2) (h : Fin 16)
    (hb : b.val = t.val / 128) (hh : h.val = t.val / 8 % 16) :
    (iblk1 V c 1 t : Vec Ideal S1x1x2048x64 .bf16) (ix4 (n0 := 1) (n1 := 1) (n2 := 2048) (n3 := 64) 0 0 j d)
      = (V c main_v18 : FVec Ideal S2x16x2048x64 .bf16) (ix4 (n0 := 2) (n1 := 16) (n2 := 2048) (n3 := 64) b h j d) := by
  obtain ⟨-, ⟨e0, e1, e2, e3⟩, -⟩ := idx_facts t
  show (V c main_v18 : FVec Ideal S2x16x2048x64 .bf16) (((cfg1.win 1).blk t).view.emb (ix4 (n0 := 1) (n1 := 1) (n2 := 2048) (n3 := 64) 0 0 j d)) = _
  refine congrArg _ (funext fun a => Fin.ext ?_)
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 2048 + 1 * j.val = j.val; omega
  | ⟨3, _⟩ => show win1_1.index t (3 : Fin 4) * 64 + 1 * d.val = d.val; omega

/-- An entry of the value block is the value array's entry at the point's batch and head. -/
theorem v_blk (c : Dev nD) (t : Fin cfg1.N) (j : Fin 2048) (d : Fin 64) (b : Fin 2) (h : Fin 16) (d' : Fin 64)
    (hb : b.val = t.val / 128) (hh : h.val = t.val / 8 % 16) (hd : d'.val = d.val) :
    (iblk1 V c 2 t : Vec Ideal S1x1x2048x64 .bf16) (ix4 (n0 := 1) (n1 := 1) (n2 := 2048) (n3 := 64) 0 0 j d)
      = (V c main_v19 : FVec Ideal S2x16x2048x64 .bf16) (ix4 (n0 := 2) (n1 := 16) (n2 := 2048) (n3 := 64) b h j d') := by
  obtain ⟨-, -, ⟨e0, e1, e2, e3⟩, -⟩ := idx_facts t
  show (V c main_v19 : FVec Ideal S2x16x2048x64 .bf16) (((cfg1.win 2).blk t).view.emb (ix4 (n0 := 1) (n1 := 1) (n2 := 2048) (n3 := 64) 0 0 j d)) = _
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 2048 + 1 * j.val = j.val; omega
  | ⟨3, _⟩ => show win1_2.index t (3 : Fin 4) * 64 + 1 * d.val = d'.val; omega

/-- An entry of the bias block is the bias array's entry at the point's batch. -/
theorem bias_blk (c : Dev nD) (t : Fin cfg1.N) (j : Fin 2048) (b : Fin 2) (hb : b.val = t.val / 128) :
    (iblk1 V c 3 t : Vec Ideal S1x1x1x2048 .f32) (ix4 (n0 := 1) (n1 := 1) (n2 := 1) (n3 := 2048) 0 0 0 j)
      = (V c main_arg1 : FVec Ideal S2x1x1x2048 .f32) (ix4 (n0 := 2) (n1 := 1) (n2 := 1) (n3 := 2048) b 0 0 j) := by
  obtain ⟨-, -, -, ⟨e0, e1, e2, e3⟩, -⟩ := idx_facts t
  show (V c main_arg1 : FVec Ideal S2x1x1x2048 .f32) (((cfg1.win 3).blk t).view.emb (ix4 (n0 := 1) (n1 := 1) (n2 := 1) (n3 := 2048) 0 0 0 j)) = _
  refine congrArg _ (funext fun a => Fin.ext ?_)
  match a with
  | ⟨0, _⟩ => show win1_3.index t (0 : Fin 4) * 1 + 1 * 0 = b.val; omega
  | ⟨1, _⟩ => show win1_3.index t (1 : Fin 4) * 1 + 1 * 0 = 0; omega
  | ⟨2, _⟩ => show win1_3.index t (2 : Fin 4) * 1 + 1 * 0 = 0; omega
  | ⟨3, _⟩ => show win1_3.index t (3 : Fin 4) * 2048 + 1 * j.val = j.val; omega

/-- The block's row of scores of its query `i` is the row of scores of query `tile · 256 + i` of the point's batch and head. -/
theorem row_eq (c : Dev nD) (t : Fin cfg1.N) (i : Fin 256) (b : Fin 2) (h : Fin 16) (i' : Fin 2048)
    (hb : b.val = t.val / 128) (hh : h.val = t.val / 8 % 16) (hi : i'.val = t.val % 8 * 256 + i.val) :
    Region1Body.blkLogit (iblk1 V c 0 t) (iblk1 V c 1 t) (iblk1 V c 3 t) i
      = Cert.Spec.logit (V c main_v17 : FVec Ideal S2x16x2048x64 .bf16) (V c main_v18 : FVec Ideal S2x16x2048x64 .bf16)
          (V c main_arg1 : FVec Ideal S2x1x1x2048 .f32) b h i' := by
  funext j
  unfold Region1Body.blkLogit Cert.Spec.logit
  refine congrArg₂ (· + ·) (Finset.sum_congr rfl fun d _ => congrArg₂ (· * ·) ?_ ?_) ?_
  · exact q_blk V c t i d b h i' hb hh hi
  · exact k_blk V c t j d b h hb hh
  · exact bias_blk V c t j b hb

/-- What a point writes to the weights output, at key `j` and query `i` of its block, is the spec's weight there. -/
theorem align_point (c : Dev nD) (t : Fin cfg1.N) (j : Fin 2048) (i : Fin 256) :
    k1_pay1 (F := Ideal) (k1_pay4 (F := Ideal) (iblk1 V c 0 t) (iblk1 V c 1 t) (iblk1 V c 3 t))
        (ix4 (n0 := 1) (n1 := 1) (n2 := 2048) (n3 := 256) 0 0 j i)
      = Cert.Spec.alignOf (V c main_v17 : FVec Ideal S2x16x2048x64 .bf16) (V c main_v18 : FVec Ideal S2x16x2048x64 .bf16)
          (V c main_arg1 : FVec Ideal S2x1x1x2048 .f32)
          (((cfg1.win 5).blk t).view.emb (ix4 (n0 := 1) (n1 := 1) (n2 := 2048) (n3 := 256) 0 0 j i)) := by
  obtain ⟨-, -, -, -, -, ⟨e0, e1, e2, e3⟩⟩ := idx_facts t
  refine (Region1Body.align_block_apply _ _ _ j i).trans ?_
  unfold Cert.Spec.alignOf Cert.Spec.prob
  refine congrArg₂ Cert.Spec.softmaxRow (row_eq V c t i _ _ _ ?_ ?_ ?_) (Fin.ext ?_)
  · show win1_5.index t (0 : Fin 4) * 1 + 1 * 0 = t.val / 128; omega
  · show win1_5.index t (1 : Fin 4) * 1 + 1 * 0 = t.val / 8 % 16; omega
  · show win1_5.index t (3 : Fin 4) * 256 + 1 * i.val = t.val % 8 * 256 + i.val; omega
  · show j.val = win1_5.index t (2 : Fin 4) * 2048 + 1 * j.val; omega

/-- What a point writes back to the weights output is its block of the spec's weights array. -/
theorem flushed5_eq (c : Dev nD) (t : Fin cfg1.N) :
    (dat1 V c).flushed 5 t = ((cfg1.win 5).blk t).view.read (Elt Ideal)
      (Cert.Spec.alignOf (V c main_v17 : FVec Ideal S2x16x2048x64 .bf16) (V c main_v18 : FVec Ideal S2x16x2048x64 .bf16)
          (V c main_arg1 : FVec Ideal S2x1x1x2048 .f32)) := by
  show (cfg1.win 5).cut (grid1.coords t) ((dat1 V c).after 5 t) = _
  rw [after1_5]
  unfold out1_5
  rw [View.canon_unit_zero offZero]
  simp only [View.ld_unit_zero (S := S1x1x256x64) offZero, View.ld_unit_zero (S := S1x1x2048x64) offZero, View.ld_unit_zero (S := S1x1x1x2048) offZero]
  funext y
  show k1_pay1 (F := Ideal) (k1_pay4 (F := Ideal) (iblk1 V c 0 t) (iblk1 V c 1 t) (iblk1 V c 3 t)) y
      = Cert.Spec.alignOf (V c main_v17 : FVec Ideal S2x16x2048x64 .bf16) (V c main_v18 : FVec Ideal S2x16x2048x64 .bf16)
          (V c main_arg1 : FVec Ideal S2x1x1x2048 .f32) (((cfg1.win 5).blk t).view.emb y)
  have h0 : (y 0).val < 1 := (y 0).isLt
  have h1 : (y 1).val < 1 := (y 1).isLt
  have h2 : (y 2).val < 2048 := (y 2).isLt
  have h3 : (y 3).val < 256 := (y 3).isLt
  have hy : y = ix4 (n0 := 1) (n1 := 1) (n2 := 2048) (n3 := 256) 0 0 ⟨(y 2).val, h2⟩ ⟨(y 3).val, h3⟩ := by
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  rw [hy]
  exact align_point V c t _ _

/-- An index of the weights array lies in a point's block iff every coordinate lies in the block's range on its axis. -/
theorem mem_blk5 (t : Fin cfg1.N) (x : S2x16x2048x2048.Idx) :
    x ∈ ((cfg1.win 5).blk t).view.set ↔ ∀ a : Fin 4, win1_5.index t a * S1x1x2048x256.size a ≤ (x a).val
      ∧ (x a).val < win1_5.index t a * S1x1x2048x256.size a + S1x1x2048x256.size a := by
  show x ∈ ((View.whole main_v20_1).slice (win1_5.rect t)).set ↔ _
  rw [View.set_slice_whole, Rect.mem_set_unit]
  exact Iff.rfl

/-- Every index of the weights array lies in the block of the point of its batch, its head and its query's tile. -/
theorem cover5 (x : S2x16x2048x2048.Idx) :
    ∃ t : Fin cfg1.N, (cfg1.win 5).flush t = true ∧ x ∈ ((cfg1.win 5).blk t).view.set := by
  have hN : cfg1.N = 256 := N_1
  have h0 : (x 0).val < 2 := (x 0).isLt
  have h1 : (x 1).val < 16 := (x 1).isLt
  have h2 : (x 2).val < 2048 := (x 2).isLt
  have h3 : (x 3).val < 2048 := (x 3).isLt
  have hlt : (x 0).val * 128 + (x 1).val * 8 + (x 3).val / 256 < cfg1.N := by omega
  obtain ⟨-, -, -, -, -, ⟨e0, e1, e2, e3⟩⟩ := idx_facts ⟨(x 0).val * 128 + (x 1).val * 8 + (x 3).val / 256, hlt⟩
  refine ⟨⟨(x 0).val * 128 + (x 1).val * 8 + (x 3).val / 256, hlt⟩, flush1_5 _, ?_⟩
  rw [mem_blk5]
  intro a
  match a with
  | ⟨0, _⟩ =>
    show win1_5.index ⟨(x 0).val * 128 + (x 1).val * 8 + (x 3).val / 256, hlt⟩ (0 : Fin 4) * 1 ≤ (x 0).val
      ∧ (x 0).val < win1_5.index ⟨(x 0).val * 128 + (x 1).val * 8 + (x 3).val / 256, hlt⟩ (0 : Fin 4) * 1 + 1
    rw [e0]; show ((x 0).val * 128 + (x 1).val * 8 + (x 3).val / 256) / 128 * 1 ≤ (x 0).val
      ∧ (x 0).val < ((x 0).val * 128 + (x 1).val * 8 + (x 3).val / 256) / 128 * 1 + 1
    omega
  | ⟨1, _⟩ =>
    show win1_5.index ⟨(x 0).val * 128 + (x 1).val * 8 + (x 3).val / 256, hlt⟩ (1 : Fin 4) * 1 ≤ (x 1).val
      ∧ (x 1).val < win1_5.index ⟨(x 0).val * 128 + (x 1).val * 8 + (x 3).val / 256, hlt⟩ (1 : Fin 4) * 1 + 1
    rw [e1]; show ((x 0).val * 128 + (x 1).val * 8 + (x 3).val / 256) / 8 % 16 * 1 ≤ (x 1).val
      ∧ (x 1).val < ((x 0).val * 128 + (x 1).val * 8 + (x 3).val / 256) / 8 % 16 * 1 + 1
    omega
  | ⟨2, _⟩ =>
    show win1_5.index ⟨(x 0).val * 128 + (x 1).val * 8 + (x 3).val / 256, hlt⟩ (2 : Fin 4) * 2048 ≤ (x 2).val
      ∧ (x 2).val < win1_5.index ⟨(x 0).val * 128 + (x 1).val * 8 + (x 3).val / 256, hlt⟩ (2 : Fin 4) * 2048 + 2048
    rw [e2]; omega
  | ⟨3, _⟩ =>
    show win1_5.index ⟨(x 0).val * 128 + (x 1).val * 8 + (x 3).val / 256, hlt⟩ (3 : Fin 4) * 256 ≤ (x 3).val
      ∧ (x 3).val < win1_5.index ⟨(x 0).val * 128 + (x 1).val * 8 + (x 3).val / 256, hlt⟩ (3 : Fin 4) * 256 + 256
    rw [e3]; show ((x 0).val * 128 + (x 1).val * 8 + (x 3).val / 256) % 8 * 256 ≤ (x 3).val
      ∧ (x 3).val < ((x 0).val * 128 + (x 1).val * 8 + (x 3).val / 256) % 8 * 256 + 256
    omega

/-- The weights array after region 1, keys before queries. -/
theorem arr_align (c : Dev nD) :
    ((dat1 V c).arrAt 5 cfg1.N : FVec Ideal S2x16x2048x2048 .f32)
      = Cert.Spec.alignOf (V c main_v17 : FVec Ideal S2x16x2048x64 .bf16) (V c main_v18 : FVec Ideal S2x16x2048x64 .bf16)
          (V c main_arg1 : FVec Ideal S2x1x1x2048 .f32) :=
  (dat1 V c).arrAt_eq_of_cover 5 _ (fun t _ => flushed5_eq V c t) cover5

/-- What a point writes to the context output, at query `i` and depth `d` of its block, is the spec's context there. -/
theorem ctx_point (c : Dev nD) (t : Fin cfg1.N) (i : Fin 256) (d : Fin 64) :
    k1_pay3 (F := Ideal) (iblk1 V c 0 t) (iblk1 V c 1 t) (iblk1 V c 2 t) (iblk1 V c 3 t)
        (ix4 (n0 := 1) (n1 := 1) (n2 := 256) (n3 := 64) 0 0 i d)
      = Cert.Spec.ctxOf (V c main_v17 : FVec Ideal S2x16x2048x64 .bf16) (V c main_v18 : FVec Ideal S2x16x2048x64 .bf16)
          (V c main_v19 : FVec Ideal S2x16x2048x64 .bf16) (V c main_arg1 : FVec Ideal S2x1x1x2048 .f32)
          (((cfg1.win 4).blk t).view.emb (ix4 (n0 := 1) (n1 := 1) (n2 := 256) (n3 := 64) 0 0 i d)) := by
  obtain ⟨-, -, -, -, ⟨e0, e1, e2, e3⟩, -⟩ := idx_facts t
  refine (Region1Body.ctx_block_apply _ _ _ _ i d).trans ?_
  unfold Cert.Spec.ctxOf Cert.Spec.prob
  have hb : win1_4.index t (0 : Fin 4) * 1 + 1 * 0 = t.val / 128 := by omega
  have hh : win1_4.index t (1 : Fin 4) * 1 + 1 * 0 = t.val / 8 % 16 := by omega
  have hi : win1_4.index t (2 : Fin 4) * 256 + 1 * i.val = t.val % 8 * 256 + i.val := by omega
  have hd : win1_4.index t (3 : Fin 4) * 64 + 1 * d.val = d.val := by omega
  refine Finset.sum_congr rfl fun j _ => congrArg₂ (· * ·) ?_ ?_
  · exact congrFun (congrArg Cert.Spec.softmaxRow (row_eq V c t i _ _ _ hb hh hi)) j
  · exact v_blk V c t j d _ _ _ hb hh hd

/-- What a point writes back to the context output is its block of the spec's context array. -/
theorem flushed4_eq (c : Dev nD) (t : Fin cfg1.N) :
    (dat1 V c).flushed 4 t = ((cfg1.win 4).blk t).view.read (Elt Ideal)
      (Cert.Spec.ctxOf (V c main_v17 : FVec Ideal S2x16x2048x64 .bf16) (V c main_v18 : FVec Ideal S2x16x2048x64 .bf16)
          (V c main_v19 : FVec Ideal S2x16x2048x64 .bf16) (V c main_arg1 : FVec Ideal S2x1x1x2048 .f32)) := by
  show (cfg1.win 4).cut (grid1.coords t) ((dat1 V c).after 4 t) = _
  rw [after1_4]
  unfold out1_4
  rw [View.canon_unit_zero offZero]
  simp only [View.ld_unit_zero (S := S1x1x256x64) offZero, View.ld_unit_zero (S := S1x1x2048x64) offZero, View.ld_unit_zero (S := S1x1x1x2048) offZero]
  funext y
  show k1_pay3 (F := Ideal) (iblk1 V c 0 t) (iblk1 V c 1 t) (iblk1 V c 2 t) (iblk1 V c 3 t) y
      = Cert.Spec.ctxOf (V c main_v17 : FVec Ideal S2x16x2048x64 .bf16) (V c main_v18 : FVec Ideal S2x16x2048x64 .bf16)
          (V c main_v19 : FVec Ideal S2x16x2048x64 .bf16) (V c main_arg1 : FVec Ideal S2x1x1x2048 .f32)
          (((cfg1.win 4).blk t).view.emb y)
  have h0 : (y 0).val < 1 := (y 0).isLt
  have h1 : (y 1).val < 1 := (y 1).isLt
  have h2 : (y 2).val < 256 := (y 2).isLt
  have h3 : (y 3).val < 64 := (y 3).isLt
  have hy : y = ix4 (n0 := 1) (n1 := 1) (n2 := 256) (n3 := 64) 0 0 ⟨(y 2).val, h2⟩ ⟨(y 3).val, h3⟩ := by
    funext a
    match a with
    | ⟨0, _⟩ => exact Fin.ext (by show (y 0).val = 0; omega)
    | ⟨1, _⟩ => exact Fin.ext (by show (y 1).val = 0; omega)
    | ⟨2, _⟩ => rfl
    | ⟨3, _⟩ => rfl
  rw [hy]
  exact ctx_point V c t _ _

/-- An index of the context array lies in a point's block iff every coordinate lies in the block's range on its axis. -/
theorem mem_blk4 (t : Fin cfg1.N) (x : S2x16x2048x64.Idx) :
    x ∈ ((cfg1.win 4).blk t).view.set ↔ ∀ a : Fin 4, win1_4.index t a * S1x1x256x64.size a ≤ (x a).val
      ∧ (x a).val < win1_4.index t a * S1x1x256x64.size a + S1x1x256x64.size a := by
  show x ∈ ((View.whole main_v20_0).slice (win1_4.rect t)).set ↔ _
  rw [View.set_slice_whole, Rect.mem_set_unit]
  exact Iff.rfl

/-- Every index of the context array lies in the block of the point of its batch, its head and its query's tile. -/
theorem cover4 (x : S2x16x2048x64.Idx) :
    ∃ t : Fin cfg1.N, (cfg1.win 4).flush t = true ∧ x ∈ ((cfg1.win 4).blk t).view.set := by
  have hN : cfg1.N = 256 := N_1
  have h0 : (x 0).val < 2 := (x 0).isLt
  have h1 : (x 1).val < 16 := (x 1).isLt
  have h2 : (x 2).val < 2048 := (x 2).isLt
  have h3 : (x 3).val < 64 := (x 3).isLt
  have hlt : (x 0).val * 128 + (x 1).val * 8 + (x 2).val / 256 < cfg1.N := by omega
  obtain ⟨-, -, -, -, ⟨e0, e1, e2, e3⟩, -⟩ := idx_facts ⟨(x 0).val * 128 + (x 1).val * 8 + (x 2).val / 256, hlt⟩
  refine ⟨⟨(x 0).val * 128 + (x 1).val * 8 + (x 2).val / 256, hlt⟩, flush1_4 _, ?_⟩
  rw [mem_blk4]
  intro a
  match a with
  | ⟨0, _⟩ =>
    show win1_4.index ⟨(x 0).val * 128 + (x 1).val * 8 + (x 2).val / 256, hlt⟩ (0 : Fin 4) * 1 ≤ (x 0).val
      ∧ (x 0).val < win1_4.index ⟨(x 0).val * 128 + (x 1).val * 8 + (x 2).val / 256, hlt⟩ (0 : Fin 4) * 1 + 1
    rw [e0]; show ((x 0).val * 128 + (x 1).val * 8 + (x 2).val / 256) / 128 * 1 ≤ (x 0).val
      ∧ (x 0).val < ((x 0).val * 128 + (x 1).val * 8 + (x 2).val / 256) / 128 * 1 + 1
    omega
  | ⟨1, _⟩ =>
    show win1_4.index ⟨(x 0).val * 128 + (x 1).val * 8 + (x 2).val / 256, hlt⟩ (1 : Fin 4) * 1 ≤ (x 1).val
      ∧ (x 1).val < win1_4.index ⟨(x 0).val * 128 + (x 1).val * 8 + (x 2).val / 256, hlt⟩ (1 : Fin 4) * 1 + 1
    rw [e1]; show ((x 0).val * 128 + (x 1).val * 8 + (x 2).val / 256) / 8 % 16 * 1 ≤ (x 1).val
      ∧ (x 1).val < ((x 0).val * 128 + (x 1).val * 8 + (x 2).val / 256) / 8 % 16 * 1 + 1
    omega
  | ⟨2, _⟩ =>
    show win1_4.index ⟨(x 0).val * 128 + (x 1).val * 8 + (x 2).val / 256, hlt⟩ (2 : Fin 4) * 256 ≤ (x 2).val
      ∧ (x 2).val < win1_4.index ⟨(x 0).val * 128 + (x 1).val * 8 + (x 2).val / 256, hlt⟩ (2 : Fin 4) * 256 + 256
    rw [e2]; show ((x 0).val * 128 + (x 1).val * 8 + (x 2).val / 256) % 8 * 256 ≤ (x 2).val
      ∧ (x 2).val < ((x 0).val * 128 + (x 1).val * 8 + (x 2).val / 256) % 8 * 256 + 256
    omega
  | ⟨3, _⟩ =>
    show win1_4.index ⟨(x 0).val * 128 + (x 1).val * 8 + (x 2).val / 256, hlt⟩ (3 : Fin 4) * 64 ≤ (x 3).val
      ∧ (x 3).val < win1_4.index ⟨(x 0).val * 128 + (x 1).val * 8 + (x 2).val / 256, hlt⟩ (3 : Fin 4) * 64 + 64
    rw [e3]; omega

/-- The context array after region 1. -/
theorem arr_ctx (c : Dev nD) :
    ((dat1 V c).arrAt 4 cfg1.N : FVec Ideal S2x16x2048x64 .bf16)
      = Cert.Spec.ctxOf (V c main_v17 : FVec Ideal S2x16x2048x64 .bf16) (V c main_v18 : FVec Ideal S2x16x2048x64 .bf16)
          (V c main_v19 : FVec Ideal S2x16x2048x64 .bf16) (V c main_arg1 : FVec Ideal S2x1x1x2048 .f32) :=
  (dat1 V c).arrAt_eq_of_cover 4 _ (fun t _ => flushed4_eq V c t) cover4

end Cert.KernelIdeal.Region1

end
-- ==== Proof.Region2.lean ====
/-
  Region 2, the output projection: 8 grid points, point `t` multiplying rows `512 t … 512 t + 511` of the flattened
  combined heads by the whole output weight matrix; the blocks tile the output array.
-/
import proofs.«105350_j10763188044553_1_alg».proof.Proof.Gen.KernelIdeal.Frame
import proofs.«105350_j10763188044553_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-! ## The body's matrix product at an index -/

/-- The left operand's index at output `i` and contraction index `q`: its row is the output's row, -/
theorem dotL_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- its column the contraction index; -/
theorem dotL_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- the right operand's row is the contraction index, -/
theorem dotR_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- its column the output's column. -/
theorem dotR_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- What the body stores, read at row `r` and column `e` of its block: the sum over the contraction index of the
    products of the two loaded blocks (the casts are to the same shape; the accumulator is the zero word). -/
theorem pay_apply (x0 : Vec Ideal S512x1024 .bf16) (x1 : Vec Ideal S1024x1024 .bf16) (r : Fin 512) (e : Fin 1024) :
    k2_pay1 (F := Ideal) x0 x1 (ix2 r e) = ∑ k : Fin 1024, x0 (ix2 r k) * x1 (ix2 k e) := by
  unfold k2_pay1
  rw [shapeCast_self, shapeCast_self]
  refine (Ideal.matmul_constant_zero_apply (φ₁ := .bf16) (φ₂ := .bf16) dot_S512x1024_S1024x1024_S512x1024_1_0_0_1_n_n none x0 x1 (ix2 r e)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e) ((contrEquiv1 dot_S512x1024_S1024x1024_S512x1024_1_0_0_1_n_n 1024 rfl rfl).symm k) = ix2 r k := funext fun a => Fin.ext (by
    match a with
    | ⟨0, _⟩ => exact dotL_0 _ _
    | ⟨1, _⟩ => exact (dotL_1 _ _).trans hk)
  have er : dot_S512x1024_S1024x1024_S512x1024_1_0_0_1_n_n.rhsIdx (ix2 r e) ((contrEquiv1 dot_S512x1024_S1024x1024_S512x1024_1_0_0_1_n_n 1024 rfl rfl).symm k) = ix2 k e := funext fun a => Fin.ext (by
    match a with
    | ⟨0, _⟩ => exact (dotR_0 _ _).trans hk
    | ⟨1, _⟩ => exact dotR_1 _ _)
  rw [el, er]

/-! ## From the blocks to the array -/

/-- The two zero offsets of a whole-buffer access are the constant zero function. -/
theorem zeros2 : (![0, 0] : Fin 2 → Nat) = fun _ => 0 := funext fun a => by fin_cases a <;> rfl

/-- The product of the two operand arrays the region is entered with, whole. -/
abbrev prodAt (c : Dev nD) : FVec Ideal S4096x1024 .f32 :=
  Cert.Spec.prodOut (V c main_v23 : FVec Ideal S4096x1024 .bf16) (V c main_v2 : FVec Ideal S1024x1024 .bf16)

/-- The printed index maps, decided over the eight points: the window of combined heads sits at the output window's block row,
    every other block index is zero, and the output's block row is one of the eight. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 7
    ∧ win2_2.index t (1 : Fin 2) = 0 :=
  (by decide +kernel : ∀ t : Fin grid2.N, _)

/-- Every block row of the output is some point's. -/
theorem idx_onto : ∀ q : Fin 8, ∃ t : Fin cfg2.N, win2_2.index t = ![q.val, 0] :=
  (by decide +kernel : ∀ q : Fin 8, ∃ t : Fin grid2.N, win2_2.index t = ![q.val, 0])

/-- What point `t` writes back is block `t` of the product of the arrays the region is entered with: the body's sum at
    row `r` of the block reads the array of combined heads at row `512 · index + r`, the output's own row, and the weight array whole. -/
theorem flushed_eq (c : Dev nD) (t : Fin cfg2.N) :
    (dat2 V c).flushed 2 t = ((cfg2.win 2).blk t).view.read (Elt Ideal) (prodAt V c) := by
  show (cfg2.win 2).cut (grid2.coords t) ((dat2 V c).after 2 t) = _
  rw [after2_2]
  unfold out2_2
  rw [View.canon_unit_zero zeros2]
  simp only [View.ld_unit_zero (S := S512x1024) zeros2, View.ld_unit_zero (S := S1024x1024) zeros2]
  obtain ⟨e0, e1, e2, e3, e4, e5⟩ := idx_facts t
  refine funext fun (j : S512x1024.Idx) => ?_
  obtain ⟨r, e, rfl⟩ : ∃ (r : Fin 512) (e : Fin 1024), j = ix2 r e := ⟨j 0, j 1, eq_ix2 j⟩
  show k2_pay1 (F := Ideal) (iblk2 V c 0 t) (iblk2 V c 1 t) (ix2 r e) = prodAt V c (((cfg2.win 2).blk t).view.emb (ix2 r e))
  refine (pay_apply (iblk2 V c 0 t) (iblk2 V c 1 t) r e).trans ?_
  show _ = ∑ k : Fin 1024, _
  refine Finset.sum_congr rfl fun k _ => ?_
  -- the left block's element (r, k) is the array's at the output's row and column k
  have h0 : ((cfg2.win 0).blk t).view.emb (ix2 r k)
      = ix2 (n0 := 4096) (n1 := 1024) ⟨((((cfg2.win 2).blk t).view.emb (ix2 r e)) 0).val, ((((cfg2.win 2).blk t).view.emb (ix2 r e)) 0).isLt⟩ k := by
    funext a; apply Fin.ext
    match a with
    | ⟨0, _⟩ => show win2_0.index t (0 : Fin 2) * 512 + 1 * r.val = win2_2.index t (0 : Fin 2) * 512 + 1 * r.val; omega
    | ⟨1, _⟩ => show win2_0.index t (1 : Fin 2) * 1024 + 1 * k.val = k.val; omega
  -- the weight block's element (k, e) is the array's at row k and the output's column
  have h1 : ((cfg2.win 1).blk t).view.emb (ix2 k e)
      = ix2 (n0 := 1024) (n1 := 1024) k ⟨((((cfg2.win 2).blk t).view.emb (ix2 r e)) 1).val, ((((cfg2.win 2).blk t).view.emb (ix2 r e)) 1).isLt⟩ := by
    funext a; apply Fin.ext
    match a with
    | ⟨0, _⟩ => show win2_1.index t (0 : Fin 2) * 1024 + 1 * k.val = k.val; omega
    | ⟨1, _⟩ => show win2_1.index t (1 : Fin 2) * 1024 + 1 * e.val = win2_2.index t (1 : Fin 2) * 1024 + 1 * e.val; omega
  have a0 : iblk2 V c 0 t (ix2 r k) = (V c main_v23 : FVec Ideal S4096x1024 .bf16) _ :=
    congrArg (V c main_v23 : FVec Ideal S4096x1024 .bf16) h0
  have a1 : iblk2 V c 1 t (ix2 k e) = (V c main_v2 : FVec Ideal S1024x1024 .bf16) _ :=
    congrArg (V c main_v2 : FVec Ideal S1024x1024 .bf16) h1
  rw [a0, a1]

/-- An index of the output array is in point `t`'s block iff each coordinate is in the block's range on its axis. -/
theorem mem_blk (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v24).slice (win2_2.rect t)).set ↔ _
  rw [View.set_slice_whole, Rect.mem_set_unit]
  exact Iff.rfl

/-- The blocks tile the output array: row `r` lies in the block of the point whose block row is `r / 512`, and every
    column lies in the one block column. -/
theorem cover (i : S4096x1024.Idx) :
    ∃ t : Fin cfg2.N, (cfg2.win 2).flush t = true ∧ i ∈ ((cfg2.win 2).blk t).view.set := by
  have hi0 : (i 0).val < 4096 := (i 0).isLt
  have hi1 : (i 1).val < 1024 := (i 1).isLt
  obtain ⟨t, ht⟩ := idx_onto ⟨(i 0).val / 512, by omega⟩
  have q0 : win2_2.index t (0 : Fin 2) = (i 0).val / 512 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The output array after region 2 is the matrix product of the arrays the region is entered with. -/
theorem arr_out (c : Dev nD) :
    ((dat2 V c).arrAt 2 cfg2.N : FVec Ideal S4096x1024 .f32)
      = Cert.Spec.prodOut (V c main_v23 : FVec Ideal S4096x1024 .bf16) (V c main_v2 : FVec Ideal S1024x1024 .bf16) :=
  (dat2 V c).arrAt_eq_of_cover 2 (prodAt V c) (fun t _ => flushed_eq V c t) cover

end Cert.KernelIdeal.Region2

end
-- ==== Proof.RefProd.lean ====
/-
  The reference's two dense projections, read index by index: each is the matrix product of the spec with the token rows
  flattened, `[b, l, e] ↦ ∑ₖ x[b, l, k] · w[k, e]`.
-/
import proofs.«105350_j10763188044553_1_alg».proof.Proof.Gen.ReferenceIdeal.Read
import proofs.«105350_j10763188044553_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.RefProd

open Cert.ReferenceIdeal Cert.ReferenceIdeal.Gen Cert.ReferenceIdeal.Read
open Idealize.ShloMosaic Idealize.ShloMosaic.ValueIdx

/-- A product with flattened token rows, unflattened and read at `[b, l, e]`: row `b * 2048 + l` of the flattened
    left operand is row `[b, l]` of the operand itself, so the element is `∑ₖ a[b, l, k] · w[k, e]`. -/
private theorem flat_prod_apply {N : Nat}
    (a : (⟨3, ![2, 2048, 1024]⟩ : Shape).Idx → EReal) (w : (⟨2, ![1024, N]⟩ : Shape).Idx → EReal)
    (h1 : (⟨3, ![2, 2048, 1024]⟩ : Shape).ShapeCasts ⟨2, ![4096, 1024]⟩)
    (h2 : (⟨2, ![4096, N]⟩ : Shape).ShapeCasts ⟨3, ![2, 2048, N]⟩)
    (i : (⟨3, ![2, 2048, N]⟩ : Shape).Idx) :
    shapeCast (⟨3, ![2, 2048, N]⟩ : Shape)
        (fun j : (⟨2, ![4096, N]⟩ : Shape).Idx =>
          ∑ k : Fin 1024, shapeCast (⟨2, ![4096, 1024]⟩ : Shape) a h1 (ix2 (n0 := 4096) (n1 := 1024) ⟨(j 0).val, (j 0).isLt⟩ k)
            * w (ix2 (n0 := 1024) (n1 := N) k ⟨(j 1).val, (j 1).isLt⟩)) h2 i
      = ∑ k : Fin 1024, a (ix3 (n0 := 2) (n1 := 2048) (n2 := 1024) ⟨(i 0).val, (i 0).isLt⟩ ⟨(i 1).val, (i 1).isLt⟩ k)
          * w (ix2 (n0 := 1024) (n1 := N) k ⟨(i 2).val, (i 2).isLt⟩) := by
  have hi0 : (i 0).val < 2 := (i 0).isLt
  have hi1 : (i 1).val < 2048 := (i 1).isLt
  have hi2 : (i 2).val < N := (i 2).isLt
  refine (shapeCast_apply _ h2 i (ix2 (n0 := 4096) (n1 := N) ⟨(i 0).val * 2048 + (i 1).val, by omega⟩ ⟨(i 2).val, hi2⟩) (by
    rw [Shape.rowMajor_val_two, Shape.rowMajor_val_three]
    rfl)).trans ?_
  refine Finset.sum_congr rfl fun k _ => ?_
  refine congrArg (· * _) ?_
  refine shapeCast_apply a h1 _ _ (by
    rw [Shape.rowMajor_val_two, Shape.rowMajor_val_three]
    rfl)

variable (x0 : FVec Ideal S2x2048x1024 .f32) (x1 : FVec Ideal S2x1x1x2048 .f32) (x2 : FVec Ideal S1024x3072 .f32) (x3 : FVec Ideal S1024x1024 .f32)

/-- The projection onto queries, keys and values is the spec's product of the flattened tokens, unflattened. -/
theorem qkv_eq (h1 : S2x2048x1024.ShapeCasts Cert.Spec.T4096x1024) (h2 : Cert.Spec.T4096x3072.ShapeCasts S2x2048x3072) :
    val_main_v0 (F := Ideal) x0 x2 = shapeCast S2x2048x3072 (Cert.Spec.prodQKV (shapeCast Cert.Spec.T4096x1024 x0 h1) x2) h2 := by
  funext i
  refine (val_main_v0_apply x0 x2 i).trans ?_
  unfold Cert.Spec.prodQKV
  refine Eq.trans ?_ (flat_prod_apply (N := 3072) x0 x2 h1 h2 i).symm
  refine Finset.sum_congr rfl fun k _ => ?_
  -- the two operand indices, axis by axis
  have el : lidx_main_v0 i k = ix3 (n0 := 2) (n1 := 2048) (n2 := 1024) ⟨(i 0).val, (i 0).isLt⟩ ⟨(i 1).val, (i 1).isLt⟩ k := by
    funext a
    match a with
    | ⟨0, _⟩ => rfl
    | ⟨1, _⟩ => rfl
    | ⟨2, _⟩ => rfl
  have er : ridx_main_v0 i k = ix2 (n0 := 1024) (n1 := 3072) k ⟨(i 2).val, (i 2).isLt⟩ := by
    funext a
    match a with
    | ⟨0, _⟩ => rfl
    | ⟨1, _⟩ => rfl
  rw [el, er]

/-- The output projection is the spec's product of the flattened combined heads, unflattened. -/
theorem out_eq (h1 : S2x2048x1024.ShapeCasts Cert.Spec.T4096x1024) (h2 : Cert.Spec.T4096x1024.ShapeCasts S2x2048x1024) :
    val_main_v30 (F := Ideal) x0 x1 x2 x3
      = shapeCast S2x2048x1024 (Cert.Spec.prodOut (shapeCast Cert.Spec.T4096x1024 (val_main_v29 (F := Ideal) x0 x1 x2) h1) x3) h2 := by
  funext i
  refine (val_main_v30_apply x0 x1 x2 x3 i).trans ?_
  generalize val_main_v29 (F := Ideal) x0 x1 x2 = y
  unfold Cert.Spec.prodOut
  refine Eq.trans ?_ (flat_prod_apply (N := 1024) y x3 h1 h2 i).symm
  refine Finset.sum_congr rfl fun k _ => ?_
  -- the two operand indices, axis by axis
  have el : lidx_main_v30 i k = ix3 (n0 := 2) (n1 := 2048) (n2 := 1024) ⟨(i 0).val, (i 0).isLt⟩ ⟨(i 1).val, (i 1).isLt⟩ k := by
    funext a
    match a with
    | ⟨0, _⟩ => rfl
    | ⟨1, _⟩ => rfl
    | ⟨2, _⟩ => rfl
  have er : ridx_main_v30 i k = ix2 (n0 := 1024) (n1 := 1024) k ⟨(i 2).val, (i 2).isLt⟩ := by
    funext a
    match a with
    | ⟨0, _⟩ => rfl
    | ⟨1, _⟩ => rfl
  rw [el, er]

end Cert.ReferenceIdeal.RefProd

end
-- ==== Proof.RefAttn.lean ====
/-
  The reference's attention, read index by index: its weights (keys before queries) and its context are the spec's
  `alignOf` and `ctxOf` of its own scaled queries, keys and values.
-/
import proofs.«105350_j10763188044553_1_alg».proof.Proof.Gen.ReferenceIdeal.Read
import proofs.«105350_j10763188044553_1_alg».proof.Proof.Spec
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.ReferenceIdeal.RefAttn

open Cert.ReferenceIdeal Cert.ReferenceIdeal.Gen Cert.ReferenceIdeal.Read
open Idealize.ShloMosaic Idealize.ShloMosaic.ValueIdx

variable (x0 : FVec Ideal S2x2048x1024 .f32) (x1 : FVec Ideal S2x1x1x2048 .f32) (x2 : FVec Ideal S1024x3072 .f32)

/-- One score of the reference: the contraction over the depth plus the key's bias. -/
theorem scores_apply (i : S2x16x2048x2048.Idx) :
    val_main_v14 (F := Ideal) x0 x1 x2 i
      = Cert.Spec.logit (val_main_v7 (F := Ideal) x0 x2) (val_main_v9 (F := Ideal) x0 x2) x1
          ⟨(i 0).val, (i 0).isLt⟩ ⟨(i 1).val, (i 1).isLt⟩ ⟨(i 2).val, (i 2).isLt⟩ ⟨(i 3).val, (i 3).isLt⟩ := by
  rw [val_main_v14_apply, val_main_v12_apply, val_main_v13_apply]
  generalize val_main_v7 (F := Ideal) x0 x2 = Q
  generalize val_main_v9 (F := Ideal) x0 x2 = K
  unfold Cert.Spec.logit
  rw [Ideal.addf_def]
  have e1 : ∀ d : Fin 64, lidx_main_v12 i d = ix4 (n0 := 2) (n1 := 16) (n2 := 2048) (n3 := 64) ⟨(i 0).val, (i 0).isLt⟩ ⟨(i 1).val, (i 1).isLt⟩ ⟨(i 2).val, (i 2).isLt⟩ d :=
    fun d => funext fun a => by match a with | ⟨0, _⟩ => rfl | ⟨1, _⟩ => rfl | ⟨2, _⟩ => rfl | ⟨3, _⟩ => rfl
  have e2 : ∀ d : Fin 64, ridx_main_v12 i d = ix4 (n0 := 2) (n1 := 16) (n2 := 2048) (n3 := 64) ⟨(i 0).val, (i 0).isLt⟩ ⟨(i 1).val, (i 1).isLt⟩ ⟨(i 3).val, (i 3).isLt⟩ d :=
    fun d => funext fun a => by match a with | ⟨0, _⟩ => rfl | ⟨1, _⟩ => rfl | ⟨2, _⟩ => rfl | ⟨3, _⟩ => rfl
  have e3 : idx_main_v13 i = ix4 (n0 := 2) (n1 := 1) (n2 := 1) (n3 := 2048) ⟨(i 0).val, (i 0).isLt⟩ 0 0 ⟨(i 3).val, (i 3).isLt⟩ :=
    funext fun a => by match a with | ⟨0, _⟩ => rfl | ⟨1, _⟩ => rfl | ⟨2, _⟩ => rfl | ⟨3, _⟩ => rfl
  simp only [e1, e2, e3]

/-- The index over a result index `j` = (b, h, q) with key `k` on the dropped last axis is (b, h, q, k). -/
theorem lift_eq (hR : S2x16x2048x2048.Reduces [3] S2x16x2048) (j : S2x16x2048.Idx) (k : Fin 2048) :
    hR.lift j k = ix4 (n0 := 2) (n1 := 16) (n2 := 2048) (n3 := 2048)
      ⟨(j 0).val, (j 0).isLt⟩ ⟨(j 1).val, (j 1).isLt⟩ ⟨(j 2).val, (j 2).isLt⟩ k :=
  funext fun a => Fin.ext (by match a with | ⟨0, _⟩ => rfl | ⟨1, _⟩ => rfl | ⟨2, _⟩ => rfl | ⟨3, _⟩ => rfl)

/-- The reduction over the key axis: the fold of `max` from the word of −∞ over the row of scores. -/
theorem fold_apply (j : S2x16x2048.Idx) :
    val_main_v15 (F := Ideal) x0 x1 x2 j
      = (Finset.univ : Finset (Fin 2048)).fold max Cert.Spec.ninf
          (Cert.Spec.logit (val_main_v7 (F := Ideal) x0 x2) (val_main_v9 (F := Ideal) x0 x2) x1
            ⟨(j 0).val, (j 0).isLt⟩ ⟨(j 1).val, (j 1).isLt⟩ ⟨(j 2).val, (j 2).isLt⟩) := by
  have hR : S2x16x2048x2048.Reduces [3] S2x16x2048 := by decide
  unfold val_main_v15
  refine (Host.reduce_eq_fold_single _ _ _ _ hR _ j).trans ?_
  have hf : (val_main_v14 (F := Ideal) x0 x1 x2 ∘ hR.lift j)
      = Cert.Spec.logit (val_main_v7 (F := Ideal) x0 x2) (val_main_v9 (F := Ideal) x0 x2) x1
          ⟨(j 0).val, (j 0).isLt⟩ ⟨(j 1).val, (j 1).isLt⟩ ⟨(j 2).val, (j 2).isLt⟩ := by
    funext k
    show val_main_v14 (F := Ideal) x0 x1 x2 (hR.lift j k) = _
    rw [lift_eq hR j k, scores_apply]
    rfl
  rw [hf]
  rfl

/-- The row's maximum as the reference takes it: once more against the word of −∞. -/
theorem rowmax_apply (j : S2x16x2048.Idx) :
    val_main_v17 (F := Ideal) x0 x1 x2 j
      = Cert.Spec.rowMax (Cert.Spec.logit (val_main_v7 (F := Ideal) x0 x2) (val_main_v9 (F := Ideal) x0 x2) x1
            ⟨(j 0).val, (j 0).isLt⟩ ⟨(j 1).val, (j 1).isLt⟩ ⟨(j 2).val, (j 2).isLt⟩) := by
  rw [val_main_v17_apply, val_main_v16_apply, val_main_cst_1_apply, fold_apply, Ideal.maximumf_def]
  rfl

/-- One exponential: the score less its row's maximum, exponentiated. -/
theorem expo_apply (i : S2x16x2048x2048.Idx) :
    val_main_v21 (F := Ideal) x0 x1 x2 i
      = Ideal.exp (Cert.Spec.logit (val_main_v7 (F := Ideal) x0 x2) (val_main_v9 (F := Ideal) x0 x2) x1
            ⟨(i 0).val, (i 0).isLt⟩ ⟨(i 1).val, (i 1).isLt⟩ ⟨(i 2).val, (i 2).isLt⟩ ⟨(i 3).val, (i 3).isLt⟩
          - Cert.Spec.rowMax (Cert.Spec.logit (val_main_v7 (F := Ideal) x0 x2) (val_main_v9 (F := Ideal) x0 x2) x1
            ⟨(i 0).val, (i 0).isLt⟩ ⟨(i 1).val, (i 1).isLt⟩ ⟨(i 2).val, (i 2).isLt⟩)) := by
  rw [val_main_v21_apply, val_main_v20_apply, val_main_v19_apply, val_main_v18_apply, rowmax_apply, scores_apply,
    Ideal.hostUnary_exp_def, Ideal.subf_def]

/-- The row's sum of exponentials: the reduction starts from the word of zero, which adds nothing. -/
theorem denom_apply (j : S2x16x2048.Idx) :
    val_main_v22 (F := Ideal) x0 x1 x2 j
      = ∑ k : Fin 2048, Ideal.exp (Cert.Spec.logit (val_main_v7 (F := Ideal) x0 x2) (val_main_v9 (F := Ideal) x0 x2) x1
            ⟨(j 0).val, (j 0).isLt⟩ ⟨(j 1).val, (j 1).isLt⟩ ⟨(j 2).val, (j 2).isLt⟩ k
          - Cert.Spec.rowMax (Cert.Spec.logit (val_main_v7 (F := Ideal) x0 x2) (val_main_v9 (F := Ideal) x0 x2) x1
            ⟨(j 0).val, (j 0).isLt⟩ ⟨(j 1).val, (j 1).isLt⟩ ⟨(j 2).val, (j 2).isLt⟩)) := by
  rw [val_main_v22_apply, val_main_cst_2_apply, Ideal.ofBits_def, Ideal.ofBits_zero_f32, zero_add]
  refine Finset.sum_congr rfl fun k _ => ?_
  rw [expo_apply]

/-- The softmax weights before the transposition, at [b, h, i, j]. -/
theorem probs_apply (i : S2x16x2048x2048.Idx) :
    val_main_v25 (F := Ideal) x0 x1 x2 i
      = Cert.Spec.prob (val_main_v7 (F := Ideal) x0 x2) (val_main_v9 (F := Ideal) x0 x2) x1
          ⟨(i 0).val, (i 0).isLt⟩ ⟨(i 1).val, (i 1).isLt⟩ ⟨(i 2).val, (i 2).isLt⟩ ⟨(i 3).val, (i 3).isLt⟩ := by
  rw [val_main_v25_apply, val_main_v24_apply, val_main_v23_apply, denom_apply, expo_apply, Ideal.hostDivf_def]
  unfold Cert.Spec.prob Cert.Spec.softmaxRow
  rfl

/-- The second result. -/
theorem align_eq :
    val_main_v26 (F := Ideal) x0 x1 x2
      = Cert.Spec.alignOf (val_main_v7 (F := Ideal) x0 x2) (val_main_v9 (F := Ideal) x0 x2) x1 := by
  funext i
  rw [val_main_v26_apply, probs_apply]
  unfold Cert.Spec.alignOf
  rfl

/-- The context. -/
theorem ctx_eq :
    val_main_v27 (F := Ideal) x0 x1 x2
      = Cert.Spec.ctxOf (val_main_v7 (F := Ideal) x0 x2) (val_main_v9 (F := Ideal) x0 x2) (val_main_v11 (F := Ideal) x0 x2) x1 := by
  funext i
  rw [val_main_v27_apply]
  unfold Cert.Spec.ctxOf
  refine Finset.sum_congr rfl fun k _ => ?_
  rw [probs_apply]
  have e : ridx_main_v27 i k = ix4 (n0 := 2) (n1 := 16) (n2 := 2048) (n3 := 64)
      ⟨(i 0).val, (i 0).isLt⟩ ⟨(i 1).val, (i 1).isLt⟩ k ⟨(i 3).val, (i 3).isLt⟩ :=
    funext fun a => by match a with | ⟨0, _⟩ => rfl | ⟨1, _⟩ => rfl | ⟨2, _⟩ => rfl | ⟨3, _⟩ => rfl
  rw [e]

end Cert.ReferenceIdeal.RefAttn

end
-- ==== Proof.Bridge.lean ====
/-
  The kernel program's two results as functions of the launch arguments are the reference's two results.

  Region 0's array, unflattened, is the reference's projection `x · w_qkv` (the same sums). The host operations that cut it
  into scaled queries, keys and values are the reference's own, so region 1 is entered with the reference's `q`, `k`, `v`
  (a change of float format is the identity on the extended reals). Region 1 leaves the softmax weights, keys before
  queries, and the context; both are the reference's, row by row. The host operations that recombine the heads are the
  reference's again, and region 2's array, unflattened, is the reference's output projection.
-/
import proofs.«105350_j10763188044553_1_alg».proof.Proof.Walk
import proofs.«105350_j10763188044553_1_alg».proof.Proof.Region0
import proofs.«105350_j10763188044553_1_alg».proof.Proof.Region1
import proofs.«105350_j10763188044553_1_alg».proof.Proof.Region2
import proofs.«105350_j10763188044553_1_alg».proof.Proof.RefProd
import proofs.«105350_j10763188044553_1_alg».proof.Proof.RefAttn

set_option maxRecDepth 16384

noncomputable section

namespace Cert.Bridge

open Cert.KernelIdeal Cert.KernelIdeal.Gen Cert.KernelIdeal.Walk
open Idealize.ShloMosaic Idealize.ShloMosaic.TcCoe Idealize.SL.Sem

variable (m : (ℓ : Loc nD τ sig) → Buf (Elt Ideal) ℓ) (ρ : Dev nD → PrngReg)

/-- On the extended reals the narrowing of a float format changes nothing. -/
theorem truncf_id {s : Shape} (x : FVec Ideal s .f32) (h : FTy.bits .bf16 < FTy.bits .f32) :
    (truncf (F := Ideal) .bf16 x h : s.Idx → EReal) = x := rfl

/-- Region 0's array with the token rows unflattened is the reference's projection onto queries, keys and values. -/
theorem qkv_val (c : Dev nD) :
    shapeCast S2x2048x3072 (qkv m ρ c) shapeCasts_S4096x3072_S2x2048x3072
      = Cert.ReferenceIdeal.Read.val_main_v0 (F := Ideal) (a0 m c) (a2 m c) := by
  have e : qkv m ρ c = Cert.Spec.prodQKV (shapeCast S4096x1024 (a0 m c) shapeCasts_S2x2048x1024_S4096x1024) (a2 m c) := by
    show V2 m ρ c (Pipeline.arrRef spec0 2) = _
    rw [← hF0 m ρ c 2]
    refine (Cert.KernelIdeal.Region0.arr_qkv (V1 m ρ) c).trans ?_
    rw [entry0_tokens, entry0_weights]
    rfl
  rw [e]
  exact (Cert.ReferenceIdeal.RefProd.qkv_eq (a0 m c) (a2 m c) shapeCasts_S2x2048x1024_S4096x1024 shapeCasts_S4096x3072_S2x2048x3072).symm

/-- Region 1 is entered with the reference's scaled queries … -/
theorem q_val (c : Dev nD) :
    (V3 m ρ c main_v17 : FVec Ideal S2x16x2048x64 .bf16) = Cert.ReferenceIdeal.Read.val_main_v7 (F := Ideal) (a0 m c) (a2 m c) := by
  rw [entry1_q, qkv_val]
  rfl

/-- … its keys … -/
theorem k_val (c : Dev nD) :
    (V3 m ρ c main_v18 : FVec Ideal S2x16x2048x64 .bf16) = Cert.ReferenceIdeal.Read.val_main_v9 (F := Ideal) (a0 m c) (a2 m c) := by
  rw [entry1_k, qkv_val]
  rfl

/-- … and its values. -/
theorem v_val (c : Dev nD) :
    (V3 m ρ c main_v19 : FVec Ideal S2x16x2048x64 .bf16) = Cert.ReferenceIdeal.Read.val_main_v11 (F := Ideal) (a0 m c) (a2 m c) := by
  rw [entry1_v, qkv_val]
  rfl

/-- Region 1 leaves the reference's context. -/
theorem ctx_val (c : Dev nD) :
    ctx m ρ c = Cert.ReferenceIdeal.Read.val_main_v27 (F := Ideal) (a0 m c) (a1 m c) (a2 m c) := by
  show V4 m ρ c (Pipeline.arrRef spec1 4) = _
  rw [← hF1 m ρ c 4]
  refine (Cert.KernelIdeal.Region1.arr_ctx (V3 m ρ) c).trans ?_
  rw [q_val, k_val, v_val, entry1_bias]
  exact (Cert.ReferenceIdeal.RefAttn.ctx_eq (a0 m c) (a1 m c) (a2 m c)).symm

/-- THE SECOND RESULT: the softmax weights, keys before queries, are the reference's. -/
theorem align_eq (c : Dev nD) :
    (W7 m ρ c (Proc.devRef .tc main_v20_1) : FVec Ideal S2x16x2048x2048 .f32)
      = Cert.ReferenceIdeal.Read.val_main_v26 (F := Ideal) (a0 m c) (a1 m c) (a2 m c) := by
  rw [exit_align]
  show V4 m ρ c (Pipeline.arrRef spec1 5) = _
  rw [← hF1 m ρ c 5]
  refine (Cert.KernelIdeal.Region1.arr_align (V3 m ρ) c).trans ?_
  rw [q_val, k_val, entry1_bias]
  exact (Cert.ReferenceIdeal.RefAttn.align_eq (a0 m c) (a1 m c) (a2 m c)).symm

/-- THE FIRST RESULT: region 2's array with the token rows unflattened is the reference's output projection. -/
theorem out_eq (c : Dev nD) :
    (W7 m ρ c (Proc.devRef .tc main_v25) : FVec Ideal S2x2048x1024 .f32)
      = Cert.ReferenceIdeal.Read.val_main_v30 (F := Ideal) (a0 m c) (a1 m c) (a2 m c) (a3 m c) := by
  rw [exit_out]
  have e : outFlat m ρ c = Cert.Spec.prodOut
      (shapeCast S4096x1024 (Cert.ReferenceIdeal.Read.val_main_v29 (F := Ideal) (a0 m c) (a1 m c) (a2 m c)) shapeCasts_S2x2048x1024_S4096x1024) (a3 m c) := by
    show V6 m ρ c (Pipeline.arrRef spec2 2) = _
    rw [← hF2 m ρ c 2]
    refine (Cert.KernelIdeal.Region2.arr_out (V5 m ρ) c).trans ?_
    rw [entry2_x, entry2_w, ctx_val]
    rfl
  rw [e]
  exact (Cert.ReferenceIdeal.RefProd.out_eq (a0 m c) (a1 m c) (a2 m c) (a3 m c) shapeCasts_S2x2048x1024_S4096x1024 shapeCasts_S4096x1024_S2x2048x1024).symm

end Cert.Bridge

end
-- ==== Proof.lean ====
/-
  An attention layer in three kernels — the projection onto queries, keys and values, the softmax attention, the output
  projection — against its plain reference, over the extended reals.

  Both programs compute, for tokens `x`, bias `β`, weights `w_qkv`, `w_o`:
    qkv = x · w_qkv;  q, k, v = its thirds split into 16 heads of depth 64, q scaled by 1/8;
    p[b,h,i,·] = softmax over the keys of  ∑_d q[b,h,i,d] · k[b,h,j,d] + β[b,0,0,j];
    the second result is p with the key axis before the query axis;
    ctx[b,h,i,d] = ∑_j p[b,h,i,j] · v[b,h,j,d];  the first result is (ctx with the heads recombined) · w_o.
  The kernels take each sum whole (no blocking of a contracted axis), so the two sides are the same sums term by term and
  the same softmax row by row: no law of arithmetic beyond reading the operations at an index is used, and the
  precondition is not opened. Changes of float format are the identity on the extended reals.

  The frames of the two kernel programs are their generated frame certificates; the reference's frame is its generated run
  with the results dropped. The sanctioned idealization rewrote nothing. The value claim: the kernel program's run with both
  results named (Proof/KernelLaunch.lean), the results read back through the host stretches and the three regions
  (Proof/Walk.lean, Proof/Region0.lean, Proof/Region1Body.lean, Proof/Region1.lean, Proof/Region2.lean), the reference read
  index by index (Proof/RefProd.lean, Proof/RefAttn.lean), and the two joined (Proof/Bridge.lean).
-/
import proofs.«105350_j10763188044553_1_alg».proof.Defs
import proofs.«105350_j10763188044553_1_alg».proof.Proof.Gen.Kernel
import proofs.«105350_j10763188044553_1_alg».proof.Proof.Gen.Kernel.Skeleton
import proofs.«105350_j10763188044553_1_alg».proof.Proof.Gen.Kernel.Launch
import proofs.«105350_j10763188044553_1_alg».proof.Proof.Gen.Kernel.Points
import proofs.«105350_j10763188044553_1_alg».proof.Proof.Gen.Kernel.Frame
import proofs.«105350_j10763188044553_1_alg».proof.Proof.Gen.KernelIdeal
import proofs.«105350_j10763188044553_1_alg».proof.Proof.Gen.KernelIdeal.Skeleton
import proofs.«105350_j10763188044553_1_alg».proof.Proof.Gen.KernelIdeal.Launch
import proofs.«105350_j10763188044553_1_alg».proof.Proof.Gen.KernelIdeal.Points
import proofs.«105350_j10763188044553_1_alg».proof.Proof.Gen.KernelIdeal.Frame
import proofs.«105350_j10763188044553_1_alg».proof.Proof.Gen.ReferenceIdeal
import proofs.«105350_j10763188044553_1_alg».proof.Proof.Gen.ReferenceIdeal.Run
import proofs.«105350_j10763188044553_1_alg».proof.Proof.Gen.ReferenceIdeal.Read
import proofs.«105350_j10763188044553_1_alg».proof.Proof.Gen.Pre_finite_inputs
import proofs.«105350_j10763188044553_1_alg».proof.Proof.KernelLaunch
import proofs.«105350_j10763188044553_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the four arguments both programs end with the same two results: the kernel program's are
    what its last boundary holds at the two result buffers, which are the reference's stages of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v25),
    fun c => Cert.KernelIdeal.Gen.W7 m ρ c (Proc.devRef .tc Cert.KernelIdeal.main_v20_1),
    Cert.KernelIdeal.Results.run_results (F := Ideal) m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v30_eq, (hagree c).1, (hagree c).2.1, (hagree c).2.2.1, (hagree c).2.2.2]
    exact (Cert.Bridge.out_eq m ρ c).symm
  · rw [(h c).2.1, Cert.ReferenceIdeal.Read.val_main_v26_eq, (hagree c).1, (hagree c).2.1, (hagree c).2.2.1]
    exact (Cert.Bridge.align_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
